-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S_ : Shape := ⟨0, ![]⟩
abbrev S8192x1 : Shape := ⟨2, ![8192, 1]⟩
abbrev S8192x127 : Shape := ⟨2, ![8192, 127]⟩
abbrev S8192x256 : Shape := ⟨2, ![8192, 256]⟩
abbrev S2048x1024 : Shape := ⟨2, ![2048, 1024]⟩
abbrev S1024x256 : Shape := ⟨2, ![1024, 256]⟩
abbrev S2048x256 : Shape := ⟨2, ![2048, 256]⟩
abbrev S8192 : Shape := ⟨1, ![8192]⟩
abbrev S128 : Shape := ⟨1, ![128]⟩
abbrev S1x128 : Shape := ⟨2, ![1, 128]⟩

abbrev nBuf : Space → Nat
  | .hbm => 40
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .bf16⟩
  | .hbm, ⟨3, _⟩ => ⟨S_, .bf16⟩
  | .hbm, ⟨4, _⟩ => ⟨S8192x1, .bf16⟩
  | .hbm, ⟨5, _⟩ => ⟨S_, .bf16⟩
  | .hbm, ⟨6, _⟩ => ⟨S8192x127, .bf16⟩
  | .hbm, ⟨7, _⟩ => ⟨S8192x256, .bf16⟩
  | .hbm, ⟨8, _⟩ => ⟨S8192x256, .f32⟩
  | .hbm, ⟨9, _⟩ => ⟨S8192x128, .f32⟩
  | .hbm, ⟨10, _⟩ => ⟨S8192x1, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x1, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S128, .f32⟩
  | .hbm, ⟨23, _⟩ => ⟨S8192x1, .f32⟩
  | .hbm, ⟨24, _⟩ => ⟨S1x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  bcast_S_S8192x1 : S_.BroadcastsInDim S8192x1 (![] : Fin 0 → Fin S8192x1.rank)
  bcast_S_S8192x127 : S_.BroadcastsInDim S8192x127 (![] : Fin 0 → Fin S8192x127.rank)
  concatenates_S8192x128_S8192x1_S8192x127_S8192x256_d1 : Shape.Concatenates [S8192x128, S8192x1, S8192x127] S8192x256 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S8192x256_S8192x128_0_0 : S8192x256.Slices ![0, 0] S8192x128
  slices_S8192x256_S8192x1_0_128 : S8192x256.Slices ![0, 128] S8192x1
  shapeCasts_S8192x1_S8192 : S8192x1.ShapeCasts S8192
  reducesTo_S8192_S_d0 : S8192.ReducesTo [0] S_
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  reducesTo_S8192x128_S128_d0 : S8192x128.ReducesTo [0] S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S_d0_1 : S8192x128.ReducesTo [0, 1] S_
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  reducesTo_S8192x8192_S8192_d1 : S8192x8192.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x128_S_d0_1 : S8192x128.ReducesTo [0, 1] S_
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsFrame.Base.lean ====
/-
  The matrix-product kernel's program around its one pallas_call, and what its runs are stated over.

  @main is six host operations (the features cast to bf16 and augmented by a column of ones and 127 columns of zeros),
  the pallas_call, and 31 host operations on its result. The call runs on a 4 × 8 grid: point (i, k) multiplies block
  (i, k) of the weights (2048 × 1024) by block k of the augmented features (1024 × 256) and adds the product to an
  accumulator kept in scratch, which it clears first when k = 0 and copies to the output's block i when k = 7; at the
  other points the output's staging buffer is left alone and not written back. Here: the buffers' contents when the
  region is entered, @main split around the region, the side conditions on the operations after it, each window's
  block, the two branch conditions decided over the grid, where the output window is idle, and the scratch as a memref.
-/
import proofs.«117033_j13434657702449_1_alg».proof.Proof.Gen.Kernel.Launch
import proofs.«117033_j13434657702449_1_alg».proof.Proof.Gen.Kernel.Skeleton
import proofs.«117033_j13434657702449_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the six host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the pipeline: each writes its own result buffer, and the weights, the augmented
    features and the product are the result of none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- None of the six operations before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.nullary_writes, StableHlo.unary_writes, StableHlo.nary_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' staging buffer holds the weights' block at every point, for any proof data whose array is the
    region-entry contents and whose body leaves the block in place. -/
theorem before_w_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the augmented features' staging buffer. -/
theorem before_x_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The operations after the region leave the arguments alone -/

/-- After the 31 later operations the features are what was launched: none of them writes the features' buffer, which
    is no array of the pipeline either. -/
theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.Forall, StableHlo.nullary_writes, StableHlo.unary_writes, StableHlo.binary_writes, StableHlo.reshape_writes, Finset.mem_singleton]
    repeat' apply And.intro
    all_goals exact StableHlo.devRef_ne_of_ne (by decide)))]
  rw [Pipeline.withArrays_of_ne _ c _ _ main_arg0 (by decide)]
  exact V_main_arg0 m c

/-! ## The frame claim's post from the frame run's -/

/-- From a run to the library's frame post — the weights a staged input, so at their entry contents; the features no
    array of the pipeline, so at what the later operations leave — to the claim's: both arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (tail_arg0 m dats c),
    ((h c).1 0).trans (((dats 0 c).arrAt_in 0 rfl _).trans ((hA c 0).trans (V_main_arg1 m c)))⟩) h

/-! ## The body's two conditions -/

/-- "This is the first step of the reduction": the body's first `scf.if`, from the grid coordinates. -/
abbrev isFirst (i : grid0.Coords) : Prop := (Scalar.cmpi .ne (Scalar.extui (Scalar.cmpi .eq (BitVec.ofNat 32 (i 1).val) 0#32)) 0#32) = 1#1
/-- It holds at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- "This is the last step of the reduction": the body's second `scf.if`. -/
abbrev isLast (i : grid0.Coords) : Prop := k0_cond2 i = 1#1
/-- It holds at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_w : ∀ t : Fin cfg0.N, cfg0.idle 0 (grid0.coords t) = false := by decide +kernel
theorem live_x : ∀ t : Fin cfg0.N, cfg0.idle 1 (grid0.coords t) = false := by decide +kernel
/-- Away from the last step the output window is idle: the body stores nothing into it, -/
theorem idle_o : ∀ t : Fin cfg0.N, ¬isLast (grid0.coords t) → cfg0.idle 2 (grid0.coords t) = true := by decide +kernel
/-- and the pipeline does not write its block back. -/
theorem noFlush_o : ∀ t : Fin cfg0.N, ¬isLast (grid0.coords t) → (cfg0.win 2).flush t = false := by decide +kernel
/-- At the last step it is live. -/
theorem live_o : ∀ t : Fin cfg0.N, isLast (grid0.coords t) → cfg0.idle 2 (grid0.coords t) = false := by decide +kernel

/-! ## The memrefs the body is called with -/

abbrev msW (t : Fin cfg0.N) : Memref sig .tc .vmem S2048x1024 .f32 := win0_0.stage (cfg0.slots t 0)
abbrev hsW (t : Fin cfg0.N) : (msW t).IsWhole := hstage0_0 ((cfg0.slots t 0).cast nbuf0_0)
abbrev msX (t : Fin cfg0.N) : Memref sig .tc .vmem S1024x256 .bf16 := win0_1.stage (cfg0.slots t 1)
abbrev hsX (t : Fin cfg0.N) : (msX t).IsWhole := hstage0_1 ((cfg0.slots t 1).cast nbuf0_1)
abbrev msO (t : Fin cfg0.N) : Memref sig .tc .vmem S2048x256 .f32 := win0_2.stage (cfg0.slots t 2)
abbrev hsO (t : Fin cfg0.N) : (msO t).IsWhole := hstage0_2 ((cfg0.slots t 2).cast nbuf0_2)
/-- The accumulator: the kernel's one scratch buffer, whole. -/
abbrev accM : Memref sig .tc .vmem S2048x256 .f32 := Memref.whole cc0_scratch0
/-- One staging buffer of the output window and the accumulator as views, through which contents are stated. -/
abbrev viewO : View sig .tc .vmem S2048x256 .f32 := (Memref.whole cc0_stg2_0 : Memref sig .tc .vmem S2048x256 .f32).view
abbrev viewAcc : View sig .tc .vmem S2048x256 .f32 := accM.view

/-- The class's invariant with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frm

end
-- ==== Proof.BitsFrame.RunFirst.lean ====
/-
  The body's run at the FIRST step of a row block's reduction (k = 0): the accumulator, whatever it held, is cleared and
  then receives the first partial product; the output's staging buffer is handed back as found. The pieces the
  accumulator ends with are found by running the body.
-/
import proofs.«117033_j13434657702449_1_alg».proof.Proof.BitsFrame.Base

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first step: on whole memrefs — the two inputs at their contents, the output's buffer at contents handed back
    untouched, the accumulator at anything — the body runs to the continuation with the inputs as they were and the
    accumulator with the listed pieces written (last first). -/
noncomputable def runFirst (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (hc0 : isFirst i) (hc1 : ¬isLast i)
    (x0 : Vec F S2048x1024 .f32) (x1 : Vec F S1024x256 .bf16) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BitsFrame.RunMid.lean ====
/-
  The body's run at a MIDDLE step of a row block's reduction (0 < k < 7): the accumulator, at what the step before left,
  receives one more partial product; the output's staging buffer is handed back as found.
-/
import proofs.«117033_j13434657702449_1_alg».proof.Proof.BitsFrame.Base

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle step: the accumulator enters at the contents `xs` the step before left and ends with the listed pieces
    written. -/
noncomputable def runMid (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (hc0 : ¬isFirst i) (hc1 : ¬isLast i)
    (x0 : Vec F S2048x1024 .f32) (x1 : Vec F S1024x256 .bf16) (xs : Vec F S2048x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BitsFrame.RunLast.lean ====
/-
  The body's run at the LAST step of a row block's reduction (k = 7): the accumulator receives the last partial product
  and is then copied whole into the output's staging buffer, which the pipeline writes back.
-/
import proofs.«117033_j13434657702449_1_alg».proof.Proof.BitsFrame.Base

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a last step: the accumulator enters at `xs`, the output's buffer at anything; both end with their listed pieces
    written. -/
noncomputable def runLast (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (hc0 : ¬isFirst i) (hc1 : isLast i)
    (x0 : Vec F S2048x1024 .f32) (x1 : Vec F S1024x256 .bf16) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.BitsFrame.Frame.lean ====
/-
  The frame of the matrix-product kernel's program: what the accumulator and the output's staging buffer hold after
  every grid point, the invariant that carries the accumulator from point to point, the pipeline's proof data, the body
  obligation (by cases on the reduction step: first, middle, last) and the run of @main — the host operations, the
  region, the host operations after it — with every array of the pipeline named at the end.
-/
import proofs.«117033_j13434657702449_1_alg».proof.Proof.BitsFrame.RunFirst
import proofs.«117033_j13434657702449_1_alg».proof.Proof.BitsFrame.RunMid
import proofs.«117033_j13434657702449_1_alg».proof.Proof.BitsFrame.RunLast

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves -/

/-- A first step's pieces cover the accumulator. -/
theorem coverFirst (c : Dev nD) (t : Fin cfg0.N) (h0 : isFirst (grid0.coords t)) (h1 : ¬isLast (grid0.coords t)) (y : S2048x256.Idx) :
    ∃ pc ∈ (runFirst c (grid0.coords t) (msW t) (hsW t) (msX t) (hsX t) (msO t) (hsO t) accM (Memref.isWhole_whole _) h0 h1 (iblk m c 0 t) (iblk m c 1 t)).1, y ∈ pc.1.set :=
  View.cover_of_tiledL (runFirst c (grid0.coords t) (msW t) (hsW t) (msX t) (hsX t) (msO t) (hsO t) accM (Memref.isWhole_whole _) h0 h1 (iblk m c 0 t) (iblk m c 1 t)).1 S2048x256.size (by sl_kernel_rfl) y

/-- What a first step at point `t` leaves in the accumulator: its pieces read back. -/
def accFirst (c : Dev nD) (t : Fin cfg0.N) (h0 : isFirst (grid0.coords t)) (h1 : ¬isLast (grid0.coords t)) : Vec F S2048x256 .f32 :=
  viewAcc.read (Elt F) (viewAcc.writes (Elt F) viewAcc.junk (runFirst c (grid0.coords t) (msW t) (hsW t) (msX t) (hsX t) (msO t) (hsO t) accM (Memref.isWhole_whole _) h0 h1 (iblk m c 0 t) (iblk m c 1 t)).1)

/-- A middle step's pieces cover the accumulator. -/
theorem coverMid (c : Dev nD) (t : Fin cfg0.N) (h0 : ¬isFirst (grid0.coords t)) (h1 : ¬isLast (grid0.coords t)) (xs : Vec F S2048x256 .f32) (y : S2048x256.Idx) :
    ∃ pc ∈ (runMid c (grid0.coords t) (msW t) (hsW t) (msX t) (hsX t) (msO t) (hsO t) accM (Memref.isWhole_whole _) h0 h1 (iblk m c 0 t) (iblk m c 1 t) xs).1, y ∈ pc.1.set :=
  View.cover_of_tiledL (runMid c (grid0.coords t) (msW t) (hsW t) (msX t) (hsX t) (msO t) (hsO t) accM (Memref.isWhole_whole _) h0 h1 (iblk m c 0 t) (iblk m c 1 t) xs).1 S2048x256.size (by sl_kernel_rfl) y

/-- What a middle step at point `t` leaves in the accumulator, entered at `xs`. -/
def accMid (c : Dev nD) (t : Fin cfg0.N) (h0 : ¬isFirst (grid0.coords t)) (h1 : ¬isLast (grid0.coords t)) (xs : Vec F S2048x256 .f32) : Vec F S2048x256 .f32 :=
  viewAcc.read (Elt F) (viewAcc.writes (Elt F) viewAcc.junk (runMid c (grid0.coords t) (msW t) (hsW t) (msX t) (hsX t) (msO t) (hsO t) accM (Memref.isWhole_whole _) h0 h1 (iblk m c 0 t) (iblk m c 1 t) xs).1)

/-- A last step's pieces cover the output's buffer, -/
theorem coverLastO (c : Dev nD) (t : Fin cfg0.N) (h0 : ¬isFirst (grid0.coords t)) (h1 : isLast (grid0.coords t)) (xs : Vec F S2048x256 .f32) (y : S2048x256.Idx) :
    ∃ pc ∈ (runLast c (grid0.coords t) (msW t) (hsW t) (msX t) (hsX t) (msO t) (hsO t) accM (Memref.isWhole_whole _) h0 h1 (iblk m c 0 t) (iblk m c 1 t) xs).1, y ∈ pc.1.set :=
  View.cover_of_tiledL (runLast c (grid0.coords t) (msW t) (hsW t) (msX t) (hsX t) (msO t) (hsO t) accM (Memref.isWhole_whole _) h0 h1 (iblk m c 0 t) (iblk m c 1 t) xs).1 S2048x256.size (by sl_kernel_rfl) y

/-- and the accumulator. -/
theorem coverLastS (c : Dev nD) (t : Fin cfg0.N) (h0 : ¬isFirst (grid0.coords t)) (h1 : isLast (grid0.coords t)) (xs : Vec F S2048x256 .f32) (y : S2048x256.Idx) :
    ∃ pc ∈ (runLast c (grid0.coords t) (msW t) (hsW t) (msX t) (hsX t) (msO t) (hsO t) accM (Memref.isWhole_whole _) h0 h1 (iblk m c 0 t) (iblk m c 1 t) xs).2.1, y ∈ pc.1.set :=
  View.cover_of_tiledL (runLast c (grid0.coords t) (msW t) (hsW t) (msX t) (hsX t) (msO t) (hsO t) accM (Memref.isWhole_whole _) h0 h1 (iblk m c 0 t) (iblk m c 1 t) xs).2.1 S2048x256.size (by sl_kernel_rfl) y

/-- What a last step at point `t` leaves in the output's staging buffer, the accumulator entered at `xs`. -/
def outLast (c : Dev nD) (t : Fin cfg0.N) (h0 : ¬isFirst (grid0.coords t)) (h1 : isLast (grid0.coords t)) (xs : Vec F S2048x256 .f32) : Vec F S2048x256 .f32 :=
  viewO.read (Elt F) (viewO.writes (Elt F) viewO.junk (runLast c (grid0.coords t) (msW t) (hsW t) (msX t) (hsX t) (msO t) (hsO t) accM (Memref.isWhole_whole _) h0 h1 (iblk m c 0 t) (iblk m c 1 t) xs).1)

/-- What it leaves in the accumulator. -/
def accLast (c : Dev nD) (t : Fin cfg0.N) (h0 : ¬isFirst (grid0.coords t)) (h1 : isLast (grid0.coords t)) (xs : Vec F S2048x256 .f32) : Vec F S2048x256 .f32 :=
  viewAcc.read (Elt F) (viewAcc.writes (Elt F) viewAcc.junk (runLast c (grid0.coords t) (msW t) (hsW t) (msX t) (hsX t) (msO t) (hsO t) accM (Memref.isWhole_whole _) h0 h1 (iblk m c 0 t) (iblk m c 1 t) xs).2.1)

/-- Where the body stores nothing into the output's buffer: a placeholder nothing consults (there the window is
    neither written back nor read at the next point). -/
def outIdle : Vec F S2048x256 .f32 := viewO.read (Elt F) (viewO.writes (Elt F) viewO.junk [])

/-! ## What the buffers hold after each point -/

theorem not_first_of_last (t : Fin cfg0.N) (h1 : t.val % 8 = 7) : ¬isFirst (grid0.coords t) :=
  fun h => by have := (isFirst_iff t).mp h; omega
theorem not_last_of_first (t : Fin cfg0.N) (h0 : t.val % 8 = 0) : ¬isLast (grid0.coords t) :=
  fun h => by have := (isLast_iff t).mp h; omega

/-- THE ACCUMULATION. After the body at position `n`: the output's staging buffer and the accumulator. A first step
    (n ≡ 0 mod 8) starts the accumulator afresh; every other step adds to what the step before left; a last step
    (n ≡ 7 mod 8) also fills the output's buffer. -/
def heldAt (c : Dev nD) : (n : ℕ) → n < cfg0.N → Vec F S2048x256 .f32 × Vec F S2048x256 .f32
  | 0, hn => (outIdle, accFirst m c ⟨0, hn⟩ ((isFirst_iff ⟨0, hn⟩).mpr (Nat.zero_mod _)) (not_last_of_first ⟨0, hn⟩ (Nat.zero_mod _)))
  | n + 1, hn =>
    if h1 : (n + 1) % 8 = 7 then
      (outLast m c ⟨n + 1, hn⟩ (not_first_of_last ⟨n + 1, hn⟩ h1) ((isLast_iff ⟨n + 1, hn⟩).mpr h1) (heldAt c n (Nat.lt_of_succ_lt hn)).2,
       accLast m c ⟨n + 1, hn⟩ (not_first_of_last ⟨n + 1, hn⟩ h1) ((isLast_iff ⟨n + 1, hn⟩).mpr h1) (heldAt c n (Nat.lt_of_succ_lt hn)).2)
    else if h0 : (n + 1) % 8 = 0 then
      (outIdle, accFirst m c ⟨n + 1, hn⟩ ((isFirst_iff ⟨n + 1, hn⟩).mpr h0) (fun h => h1 ((isLast_iff ⟨n + 1, hn⟩).mp h)))
    else
      (outIdle, accMid m c ⟨n + 1, hn⟩ (fun h => h0 ((isFirst_iff ⟨n + 1, hn⟩).mp h)) (fun h => h1 ((isLast_iff ⟨n + 1, hn⟩).mp h)) (heldAt c n (Nat.lt_of_succ_lt hn)).2)

/-- At a first step: the accumulator afresh. -/
theorem heldAt_first (c : Dev nD) (t : Fin cfg0.N) (h0 : t.val % 8 = 0) :
    heldAt m c t.val t.isLt = (outIdle, accFirst m c t ((isFirst_iff t).mpr h0) (not_last_of_first t h0)) := by
  obtain ⟨n, hn⟩ := t
  cases n with
  | zero => exact rfl
  | succ n => exact (dif_neg (by dsimp only at h0; omega)).trans ((dif_pos h0).trans rfl)

/-- At a middle step: one more product on what the step before left. -/
theorem heldAt_mid (c : Dev nD) (t : Fin cfg0.N) (h0 : ¬t.val % 8 = 0) (h1 : ¬t.val % 8 = 7) :
    heldAt m c t.val t.isLt = (outIdle, accMid m c t (fun h => h0 ((isFirst_iff t).mp h)) (fun h => h1 ((isLast_iff t).mp h))
      (heldAt m c (t.val - 1) (Nat.lt_of_le_of_lt (Nat.sub_le _ _) t.isLt)).2) := by
  obtain ⟨n, hn⟩ := t
  cases n with
  | zero => exact absurd (Nat.zero_mod _) h0
  | succ n => exact (dif_neg h1).trans ((dif_neg h0).trans rfl)

/-- At a last step: the last product, and the output's buffer filled. -/
theorem heldAt_last (c : Dev nD) (t : Fin cfg0.N) (h1 : t.val % 8 = 7) :
    heldAt m c t.val t.isLt = (outLast m c t (not_first_of_last t h1) ((isLast_iff t).mpr h1) (heldAt m c (t.val - 1) (Nat.lt_of_le_of_lt (Nat.sub_le _ _) t.isLt)).2,
      accLast m c t (not_first_of_last t h1) ((isLast_iff t).mpr h1) (heldAt m c (t.val - 1) (Nat.lt_of_le_of_lt (Nat.sub_le _ _) t.isLt)).2) := by
  obtain ⟨n, hn⟩ := t
  cases n with
  | zero => exfalso; dsimp only at h1; omega
  | succ n => exact (dif_pos h1).trans rfl

/-- The region's invariant before position `n`: before the first point the class's (the scratch at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((heldAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((heldAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((heldAt m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    the output's at `heldAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_w (c : Dev nD) (t : Fin cfg0.N) : (dats m 0 c).after 0 t = iblk m c 0 t := by dsimp only [dats]
theorem after_x (c : Dev nD) (t : Fin cfg0.N) : (dats m 0 c).after 1 t = iblk m c 1 t := by dsimp only [dats]
theorem after_o (c : Dev nD) (t : Fin cfg0.N) : (dats m 0 c).after 2 t = (heldAt m c t.val t.isLt).1 := by dsimp only [dats]

theorem before_w (c : Dev nD) (t : Fin cfg0.N) (d) : (dats m 0 c).before 0 t d = iblk m c 0 t :=
  before_w_of m (dats m 0 c) (A_eq m c 0) (after_w m c) t d
theorem before_x (c : Dev nD) (t : Fin cfg0.N) (d) : (dats m 0 c).before 1 t d = iblk m c 1 t :=
  before_x_of m (dats m 0 c) (A_eq m c 1) (after_x m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (msW t) fullShare ((dats m 0 c).before 0 t d))
    ∗ (∃ d, owns (c : Thread nD τ) (msX t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's position in its row block's reduction says
    which run applies; the invariant hands the body the accumulator at what the point before left (at anything at the
    very first point) and takes it back at this point's contents; away from a last step the output's buffer goes back
    as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w, before_x]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (msW t) fullShare ((dats m 0 c).after 0 t) from by
    unfold Dat.leavesExact; rw [live_w t], after_w]
  rw [show (dats m 0 c).leavesExact 1 t = owns (c : Thread nD τ) (msX t) fullShare ((dats m 0 c).after 1 t) from by
    unfold Dat.leavesExact; rw [live_x t], after_x]
  by_cases h1 : t.val % 8 = 7
  · have hz : t.val ≠ 0 := by omega
    rw [show (dats m 0 c).leavesExact 2 t = owns (c : Thread nD τ) (msO t) fullShare ((dats m 0 c).after 2 t) from by
      unfold Dat.leavesExact; rw [live_o t ((isLast_iff t).mpr h1)], after_o]
    rw [heldAt_last m c t h1]
    unfold outLast accLast; (try dsimp only)
    rw [PhiS_castSucc m c t, PhiS_pos m c _ _ hz]
    iintro ⟨⟨HS, Hg⟩, Ho, ⟨%d0, H0⟩, ⟨%d1, H1⟩, ⟨%d2, H2⟩⟩
    iapply ((runLast c (grid0.coords t) (msW t) (hsW t) (msX t) (hsX t) (msO t) (hsO t) accM (Memref.isWhole_whole _) (not_first_of_last t h1) ((isLast_iff t).mpr h1) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (coverLastS m c t _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverLastO m c t _ _ _)
  · have hnl : ¬isLast (grid0.coords t) := fun h => h1 ((isLast_iff t).mp h)
    rw [Dat.leavesExact_idle (dats m 0 c) 2 t (idle_o t hnl) (noFlush_o t hnl)]
    by_cases h0 : t.val % 8 = 0
    · rw [heldAt_first m c t h0]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩⟩
        iapply ((runFirst c (grid0.coords t) (msW t) (hsW t) (msX t) (hsX t) (msO t) (hsO t) accM (Memref.isWhole_whole _) ((isFirst_iff t).mpr h0) (not_last_of_first t h0) (iblk m c 0 t) (iblk m c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst m c t _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply ((runFirst c (grid0.coords t) (msW t) (hsW t) (msX t) (hsX t) (msO t) (hsO t) accM (Memref.isWhole_whole _) ((isFirst_iff t).mpr h0) (not_last_of_first t h0) (iblk m c 0 t) (iblk m c 1 t)).2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst m c t _ _)
          iexact Hg
        isplitl [Ho]; · iexact Ho
        isplitl [H0]; · iexact H0
        isplitl [H1]; · iexact H1
        iexists _; iexact H2
    · have hz : t.val ≠ 0 := fun e => h0 (by rw [e])
      rw [heldAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) (msW t) (hsW t) (msX t) (hsX t) (msO t) (hsO t) accM (Memref.isWhole_whole _) (fun h => h0 ((isFirst_iff t).mp h)) hnl (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid m c t _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters, every weakly fair execution of @main terminates, and in every final state each
    array of the pipeline holds what the library computes from the proof data and every other unscoped buffer what
    the operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`: @main runs to the end, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.IdealFrame.Base.lean ====
/-
  The matrix-product kernel's program around its one pallas_call, and what its runs are stated over.

  @main is six host operations (the features cast to bf16 and augmented by a column of ones and 127 columns of zeros),
  the pallas_call, and 31 host operations on its result. The call runs on a 4 × 8 grid: point (i, k) multiplies block
  (i, k) of the weights (2048 × 1024) by block k of the augmented features (1024 × 256) and adds the product to an
  accumulator kept in scratch, which it clears first when k = 0 and copies to the output's block i when k = 7; at the
  other points the output's staging buffer is left alone and not written back. Here: the buffers' contents when the
  region is entered, @main split around the region, the side conditions on the operations after it, each window's
  block, the two branch conditions decided over the grid, where the output window is idle, and the scratch as a memref.
-/
import proofs.«117033_j13434657702449_1_alg».proof.Proof.Gen.KernelIdeal.Launch
import proofs.«117033_j13434657702449_1_alg».proof.Proof.Gen.KernelIdeal.Skeleton
import proofs.«117033_j13434657702449_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the six host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the pipeline: each writes its own result buffer, and the weights, the augmented
    features and the product are the result of none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- None of the six operations before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.nullary_writes, StableHlo.unary_writes, StableHlo.nary_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' staging buffer holds the weights' block at every point, for any proof data whose array is the
    region-entry contents and whose body leaves the block in place. -/
theorem before_w_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the augmented features' staging buffer. -/
theorem before_x_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The operations after the region leave the arguments alone -/

/-- After the 31 later operations the features are what was launched: none of them writes the features' buffer, which
    is no array of the pipeline either. -/
theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.Forall, StableHlo.nullary_writes, StableHlo.unary_writes, StableHlo.binary_writes, StableHlo.reshape_writes, Finset.mem_singleton]
    repeat' apply And.intro
    all_goals exact StableHlo.devRef_ne_of_ne (by decide)))]
  rw [Pipeline.withArrays_of_ne _ c _ _ main_arg0 (by decide)]
  exact V_main_arg0 m c

/-! ## The frame claim's post from the frame run's -/

/-- From a run to the library's frame post — the weights a staged input, so at their entry contents; the features no
    array of the pipeline, so at what the later operations leave — to the claim's: both arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (tail_arg0 m dats c),
    ((h c).1 0).trans (((dats 0 c).arrAt_in 0 rfl _).trans ((hA c 0).trans (V_main_arg1 m c)))⟩) h

/-! ## The body's two conditions -/

/-- "This is the first step of the reduction": the body's first `scf.if`, from the grid coordinates. -/
abbrev isFirst (i : grid0.Coords) : Prop := (Scalar.cmpi .ne (Scalar.extui (Scalar.cmpi .eq (BitVec.ofNat 32 (i 1).val) 0#32)) 0#32) = 1#1
/-- It holds at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- "This is the last step of the reduction": the body's second `scf.if`. -/
abbrev isLast (i : grid0.Coords) : Prop := k0_cond2 i = 1#1
/-- It holds at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_w : ∀ t : Fin cfg0.N, cfg0.idle 0 (grid0.coords t) = false := by decide +kernel
theorem live_x : ∀ t : Fin cfg0.N, cfg0.idle 1 (grid0.coords t) = false := by decide +kernel
/-- Away from the last step the output window is idle: the body stores nothing into it, -/
theorem idle_o : ∀ t : Fin cfg0.N, ¬isLast (grid0.coords t) → cfg0.idle 2 (grid0.coords t) = true := by decide +kernel
/-- and the pipeline does not write its block back. -/
theorem noFlush_o : ∀ t : Fin cfg0.N, ¬isLast (grid0.coords t) → (cfg0.win 2).flush t = false := by decide +kernel
/-- At the last step it is live. -/
theorem live_o : ∀ t : Fin cfg0.N, isLast (grid0.coords t) → cfg0.idle 2 (grid0.coords t) = false := by decide +kernel

/-! ## The memrefs the body is called with -/

abbrev msW (t : Fin cfg0.N) : Memref sig .tc .vmem S2048x1024 .f32 := win0_0.stage (cfg0.slots t 0)
abbrev hsW (t : Fin cfg0.N) : (msW t).IsWhole := hstage0_0 ((cfg0.slots t 0).cast nbuf0_0)
abbrev msX (t : Fin cfg0.N) : Memref sig .tc .vmem S1024x256 .bf16 := win0_1.stage (cfg0.slots t 1)
abbrev hsX (t : Fin cfg0.N) : (msX t).IsWhole := hstage0_1 ((cfg0.slots t 1).cast nbuf0_1)
abbrev msO (t : Fin cfg0.N) : Memref sig .tc .vmem S2048x256 .f32 := win0_2.stage (cfg0.slots t 2)
abbrev hsO (t : Fin cfg0.N) : (msO t).IsWhole := hstage0_2 ((cfg0.slots t 2).cast nbuf0_2)
/-- The accumulator: the kernel's one scratch buffer, whole. -/
abbrev accM : Memref sig .tc .vmem S2048x256 .f32 := Memref.whole cc0_scratch0
/-- One staging buffer of the output window and the accumulator as views, through which contents are stated. -/
abbrev viewO : View sig .tc .vmem S2048x256 .f32 := (Memref.whole cc0_stg2_0 : Memref sig .tc .vmem S2048x256 .f32).view
abbrev viewAcc : View sig .tc .vmem S2048x256 .f32 := accM.view

/-- The class's invariant with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frm

end
-- ==== Proof.IdealFrame.RunFirst.lean ====
/-
  The body's run at the FIRST step of a row block's reduction (k = 0): the accumulator, whatever it held, is cleared and
  then receives the first partial product; the output's staging buffer is handed back as found. The pieces the
  accumulator ends with are found by running the body.
-/
import proofs.«117033_j13434657702449_1_alg».proof.Proof.IdealFrame.Base

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first step: on whole memrefs — the two inputs at their contents, the output's buffer at contents handed back
    untouched, the accumulator at anything — the body runs to the continuation with the inputs as they were and the
    accumulator with the listed pieces written (last first). -/
noncomputable def runFirst (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (hc0 : isFirst i) (hc1 : ¬isLast i)
    (x0 : Vec F S2048x1024 .f32) (x1 : Vec F S1024x256 .bf16) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.IdealFrame.RunMid.lean ====
/-
  The body's run at a MIDDLE step of a row block's reduction (0 < k < 7): the accumulator, at what the step before left,
  receives one more partial product; the output's staging buffer is handed back as found.
-/
import proofs.«117033_j13434657702449_1_alg».proof.Proof.IdealFrame.Base

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle step: the accumulator enters at the contents `xs` the step before left and ends with the listed pieces
    written. -/
noncomputable def runMid (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (hc0 : ¬isFirst i) (hc1 : ¬isLast i)
    (x0 : Vec F S2048x1024 .f32) (x1 : Vec F S1024x256 .bf16) (xs : Vec F S2048x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.IdealFrame.RunLast.lean ====
/-
  The body's run at the LAST step of a row block's reduction (k = 7): the accumulator receives the last partial product
  and is then copied whole into the output's staging buffer, which the pipeline writes back.
-/
import proofs.«117033_j13434657702449_1_alg».proof.Proof.IdealFrame.Base

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a last step: the accumulator enters at `xs`, the output's buffer at anything; both end with their listed pieces
    written. -/
noncomputable def runLast (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S2048x256 .f32) (harg4 : arg4.IsWhole) (arg5 : Memref sig .tc .vmem S2048x256 .f32) (harg5 : arg5.IsWhole) (hc0 : ¬isFirst i) (hc1 : isLast i)
    (x0 : Vec F S2048x1024 .f32) (x1 : Vec F S1024x256 .bf16) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.IdealFrame.Frame.lean ====
/-
  The frame of the matrix-product kernel's program: what the accumulator and the output's staging buffer hold after
  every grid point, the invariant that carries the accumulator from point to point, the pipeline's proof data, the body
  obligation (by cases on the reduction step: first, middle, last) and the run of @main — the host operations, the
  region, the host operations after it — with every array of the pipeline named at the end.
-/
import proofs.«117033_j13434657702449_1_alg».proof.Proof.IdealFrame.RunFirst
import proofs.«117033_j13434657702449_1_alg».proof.Proof.IdealFrame.RunMid
import proofs.«117033_j13434657702449_1_alg».proof.Proof.IdealFrame.RunLast

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves -/

/-- A first step's pieces cover the accumulator. -/
theorem coverFirst (c : Dev nD) (t : Fin cfg0.N) (h0 : isFirst (grid0.coords t)) (h1 : ¬isLast (grid0.coords t)) (y : S2048x256.Idx) :
    ∃ pc ∈ (runFirst c (grid0.coords t) (msW t) (hsW t) (msX t) (hsX t) (msO t) (hsO t) accM (Memref.isWhole_whole _) h0 h1 (iblk m c 0 t) (iblk m c 1 t)).1, y ∈ pc.1.set :=
  View.cover_of_tiledL (runFirst c (grid0.coords t) (msW t) (hsW t) (msX t) (hsX t) (msO t) (hsO t) accM (Memref.isWhole_whole _) h0 h1 (iblk m c 0 t) (iblk m c 1 t)).1 S2048x256.size (by sl_kernel_rfl) y

/-- What a first step at point `t` leaves in the accumulator: its pieces read back. -/
def accFirst (c : Dev nD) (t : Fin cfg0.N) (h0 : isFirst (grid0.coords t)) (h1 : ¬isLast (grid0.coords t)) : Vec F S2048x256 .f32 :=
  viewAcc.read (Elt F) (viewAcc.writes (Elt F) viewAcc.junk (runFirst c (grid0.coords t) (msW t) (hsW t) (msX t) (hsX t) (msO t) (hsO t) accM (Memref.isWhole_whole _) h0 h1 (iblk m c 0 t) (iblk m c 1 t)).1)

/-- A middle step's pieces cover the accumulator. -/
theorem coverMid (c : Dev nD) (t : Fin cfg0.N) (h0 : ¬isFirst (grid0.coords t)) (h1 : ¬isLast (grid0.coords t)) (xs : Vec F S2048x256 .f32) (y : S2048x256.Idx) :
    ∃ pc ∈ (runMid c (grid0.coords t) (msW t) (hsW t) (msX t) (hsX t) (msO t) (hsO t) accM (Memref.isWhole_whole _) h0 h1 (iblk m c 0 t) (iblk m c 1 t) xs).1, y ∈ pc.1.set :=
  View.cover_of_tiledL (runMid c (grid0.coords t) (msW t) (hsW t) (msX t) (hsX t) (msO t) (hsO t) accM (Memref.isWhole_whole _) h0 h1 (iblk m c 0 t) (iblk m c 1 t) xs).1 S2048x256.size (by sl_kernel_rfl) y

/-- What a middle step at point `t` leaves in the accumulator, entered at `xs`. -/
def accMid (c : Dev nD) (t : Fin cfg0.N) (h0 : ¬isFirst (grid0.coords t)) (h1 : ¬isLast (grid0.coords t)) (xs : Vec F S2048x256 .f32) : Vec F S2048x256 .f32 :=
  viewAcc.read (Elt F) (viewAcc.writes (Elt F) viewAcc.junk (runMid c (grid0.coords t) (msW t) (hsW t) (msX t) (hsX t) (msO t) (hsO t) accM (Memref.isWhole_whole _) h0 h1 (iblk m c 0 t) (iblk m c 1 t) xs).1)

/-- A last step's pieces cover the output's buffer, -/
theorem coverLastO (c : Dev nD) (t : Fin cfg0.N) (h0 : ¬isFirst (grid0.coords t)) (h1 : isLast (grid0.coords t)) (xs : Vec F S2048x256 .f32) (y : S2048x256.Idx) :
    ∃ pc ∈ (runLast c (grid0.coords t) (msW t) (hsW t) (msX t) (hsX t) (msO t) (hsO t) accM (Memref.isWhole_whole _) h0 h1 (iblk m c 0 t) (iblk m c 1 t) xs).1, y ∈ pc.1.set :=
  View.cover_of_tiledL (runLast c (grid0.coords t) (msW t) (hsW t) (msX t) (hsX t) (msO t) (hsO t) accM (Memref.isWhole_whole _) h0 h1 (iblk m c 0 t) (iblk m c 1 t) xs).1 S2048x256.size (by sl_kernel_rfl) y

/-- and the accumulator. -/
theorem coverLastS (c : Dev nD) (t : Fin cfg0.N) (h0 : ¬isFirst (grid0.coords t)) (h1 : isLast (grid0.coords t)) (xs : Vec F S2048x256 .f32) (y : S2048x256.Idx) :
    ∃ pc ∈ (runLast c (grid0.coords t) (msW t) (hsW t) (msX t) (hsX t) (msO t) (hsO t) accM (Memref.isWhole_whole _) h0 h1 (iblk m c 0 t) (iblk m c 1 t) xs).2.1, y ∈ pc.1.set :=
  View.cover_of_tiledL (runLast c (grid0.coords t) (msW t) (hsW t) (msX t) (hsX t) (msO t) (hsO t) accM (Memref.isWhole_whole _) h0 h1 (iblk m c 0 t) (iblk m c 1 t) xs).2.1 S2048x256.size (by sl_kernel_rfl) y

/-- What a last step at point `t` leaves in the output's staging buffer, the accumulator entered at `xs`. -/
def outLast (c : Dev nD) (t : Fin cfg0.N) (h0 : ¬isFirst (grid0.coords t)) (h1 : isLast (grid0.coords t)) (xs : Vec F S2048x256 .f32) : Vec F S2048x256 .f32 :=
  viewO.read (Elt F) (viewO.writes (Elt F) viewO.junk (runLast c (grid0.coords t) (msW t) (hsW t) (msX t) (hsX t) (msO t) (hsO t) accM (Memref.isWhole_whole _) h0 h1 (iblk m c 0 t) (iblk m c 1 t) xs).1)

/-- What it leaves in the accumulator. -/
def accLast (c : Dev nD) (t : Fin cfg0.N) (h0 : ¬isFirst (grid0.coords t)) (h1 : isLast (grid0.coords t)) (xs : Vec F S2048x256 .f32) : Vec F S2048x256 .f32 :=
  viewAcc.read (Elt F) (viewAcc.writes (Elt F) viewAcc.junk (runLast c (grid0.coords t) (msW t) (hsW t) (msX t) (hsX t) (msO t) (hsO t) accM (Memref.isWhole_whole _) h0 h1 (iblk m c 0 t) (iblk m c 1 t) xs).2.1)

/-- Where the body stores nothing into the output's buffer: a placeholder nothing consults (there the window is
    neither written back nor read at the next point). -/
def outIdle : Vec F S2048x256 .f32 := viewO.read (Elt F) (viewO.writes (Elt F) viewO.junk [])

/-! ## What the buffers hold after each point -/

theorem not_first_of_last (t : Fin cfg0.N) (h1 : t.val % 8 = 7) : ¬isFirst (grid0.coords t) :=
  fun h => by have := (isFirst_iff t).mp h; omega
theorem not_last_of_first (t : Fin cfg0.N) (h0 : t.val % 8 = 0) : ¬isLast (grid0.coords t) :=
  fun h => by have := (isLast_iff t).mp h; omega

/-- THE ACCUMULATION. After the body at position `n`: the output's staging buffer and the accumulator. A first step
    (n ≡ 0 mod 8) starts the accumulator afresh; every other step adds to what the step before left; a last step
    (n ≡ 7 mod 8) also fills the output's buffer. -/
def heldAt (c : Dev nD) : (n : ℕ) → n < cfg0.N → Vec F S2048x256 .f32 × Vec F S2048x256 .f32
  | 0, hn => (outIdle, accFirst m c ⟨0, hn⟩ ((isFirst_iff ⟨0, hn⟩).mpr (Nat.zero_mod _)) (not_last_of_first ⟨0, hn⟩ (Nat.zero_mod _)))
  | n + 1, hn =>
    if h1 : (n + 1) % 8 = 7 then
      (outLast m c ⟨n + 1, hn⟩ (not_first_of_last ⟨n + 1, hn⟩ h1) ((isLast_iff ⟨n + 1, hn⟩).mpr h1) (heldAt c n (Nat.lt_of_succ_lt hn)).2,
       accLast m c ⟨n + 1, hn⟩ (not_first_of_last ⟨n + 1, hn⟩ h1) ((isLast_iff ⟨n + 1, hn⟩).mpr h1) (heldAt c n (Nat.lt_of_succ_lt hn)).2)
    else if h0 : (n + 1) % 8 = 0 then
      (outIdle, accFirst m c ⟨n + 1, hn⟩ ((isFirst_iff ⟨n + 1, hn⟩).mpr h0) (fun h => h1 ((isLast_iff ⟨n + 1, hn⟩).mp h)))
    else
      (outIdle, accMid m c ⟨n + 1, hn⟩ (fun h => h0 ((isFirst_iff ⟨n + 1, hn⟩).mp h)) (fun h => h1 ((isLast_iff ⟨n + 1, hn⟩).mp h)) (heldAt c n (Nat.lt_of_succ_lt hn)).2)

/-- At a first step: the accumulator afresh. -/
theorem heldAt_first (c : Dev nD) (t : Fin cfg0.N) (h0 : t.val % 8 = 0) :
    heldAt m c t.val t.isLt = (outIdle, accFirst m c t ((isFirst_iff t).mpr h0) (not_last_of_first t h0)) := by
  obtain ⟨n, hn⟩ := t
  cases n with
  | zero => exact rfl
  | succ n => exact (dif_neg (by dsimp only at h0; omega)).trans ((dif_pos h0).trans rfl)

/-- At a middle step: one more product on what the step before left. -/
theorem heldAt_mid (c : Dev nD) (t : Fin cfg0.N) (h0 : ¬t.val % 8 = 0) (h1 : ¬t.val % 8 = 7) :
    heldAt m c t.val t.isLt = (outIdle, accMid m c t (fun h => h0 ((isFirst_iff t).mp h)) (fun h => h1 ((isLast_iff t).mp h))
      (heldAt m c (t.val - 1) (Nat.lt_of_le_of_lt (Nat.sub_le _ _) t.isLt)).2) := by
  obtain ⟨n, hn⟩ := t
  cases n with
  | zero => exact absurd (Nat.zero_mod _) h0
  | succ n => exact (dif_neg h1).trans ((dif_neg h0).trans rfl)

/-- At a last step: the last product, and the output's buffer filled. -/
theorem heldAt_last (c : Dev nD) (t : Fin cfg0.N) (h1 : t.val % 8 = 7) :
    heldAt m c t.val t.isLt = (outLast m c t (not_first_of_last t h1) ((isLast_iff t).mpr h1) (heldAt m c (t.val - 1) (Nat.lt_of_le_of_lt (Nat.sub_le _ _) t.isLt)).2,
      accLast m c t (not_first_of_last t h1) ((isLast_iff t).mpr h1) (heldAt m c (t.val - 1) (Nat.lt_of_le_of_lt (Nat.sub_le _ _) t.isLt)).2) := by
  obtain ⟨n, hn⟩ := t
  cases n with
  | zero => exfalso; dsimp only at h1; omega
  | succ n => exact (dif_pos h1).trans rfl

/-- The region's invariant before position `n`: before the first point the class's (the scratch at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((heldAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((heldAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((heldAt m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    the output's at `heldAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_w (c : Dev nD) (t : Fin cfg0.N) : (dats m 0 c).after 0 t = iblk m c 0 t := by dsimp only [dats]
theorem after_x (c : Dev nD) (t : Fin cfg0.N) : (dats m 0 c).after 1 t = iblk m c 1 t := by dsimp only [dats]
theorem after_o (c : Dev nD) (t : Fin cfg0.N) : (dats m 0 c).after 2 t = (heldAt m c t.val t.isLt).1 := by dsimp only [dats]

theorem before_w (c : Dev nD) (t : Fin cfg0.N) (d) : (dats m 0 c).before 0 t d = iblk m c 0 t :=
  before_w_of m (dats m 0 c) (A_eq m c 0) (after_w m c) t d
theorem before_x (c : Dev nD) (t : Fin cfg0.N) (d) : (dats m 0 c).before 1 t d = iblk m c 1 t :=
  before_x_of m (dats m 0 c) (A_eq m c 1) (after_x m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (msW t) fullShare ((dats m 0 c).before 0 t d))
    ∗ (∃ d, owns (c : Thread nD τ) (msX t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's position in its row block's reduction says
    which run applies; the invariant hands the body the accumulator at what the point before left (at anything at the
    very first point) and takes it back at this point's contents; away from a last step the output's buffer goes back
    as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w, before_x]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (msW t) fullShare ((dats m 0 c).after 0 t) from by
    unfold Dat.leavesExact; rw [live_w t], after_w]
  rw [show (dats m 0 c).leavesExact 1 t = owns (c : Thread nD τ) (msX t) fullShare ((dats m 0 c).after 1 t) from by
    unfold Dat.leavesExact; rw [live_x t], after_x]
  by_cases h1 : t.val % 8 = 7
  · have hz : t.val ≠ 0 := by omega
    rw [show (dats m 0 c).leavesExact 2 t = owns (c : Thread nD τ) (msO t) fullShare ((dats m 0 c).after 2 t) from by
      unfold Dat.leavesExact; rw [live_o t ((isLast_iff t).mpr h1)], after_o]
    rw [heldAt_last m c t h1]
    unfold outLast accLast; (try dsimp only)
    rw [PhiS_castSucc m c t, PhiS_pos m c _ _ hz]
    iintro ⟨⟨HS, Hg⟩, Ho, ⟨%d0, H0⟩, ⟨%d1, H1⟩, ⟨%d2, H2⟩⟩
    iapply ((runLast c (grid0.coords t) (msW t) (hsW t) (msX t) (hsX t) (msO t) (hsO t) accM (Memref.isWhole_whole _) (not_first_of_last t h1) ((isLast_iff t).mpr h1) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (coverLastS m c t _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverLastO m c t _ _ _)
  · have hnl : ¬isLast (grid0.coords t) := fun h => h1 ((isLast_iff t).mp h)
    rw [Dat.leavesExact_idle (dats m 0 c) 2 t (idle_o t hnl) (noFlush_o t hnl)]
    by_cases h0 : t.val % 8 = 0
    · rw [heldAt_first m c t h0]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩⟩
        iapply ((runFirst c (grid0.coords t) (msW t) (hsW t) (msX t) (hsX t) (msO t) (hsO t) accM (Memref.isWhole_whole _) ((isFirst_iff t).mpr h0) (not_last_of_first t h0) (iblk m c 0 t) (iblk m c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst m c t _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply ((runFirst c (grid0.coords t) (msW t) (hsW t) (msX t) (hsX t) (msO t) (hsO t) accM (Memref.isWhole_whole _) ((isFirst_iff t).mpr h0) (not_last_of_first t h0) (iblk m c 0 t) (iblk m c 1 t)).2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst m c t _ _)
          iexact Hg
        isplitl [Ho]; · iexact Ho
        isplitl [H0]; · iexact H0
        isplitl [H1]; · iexact H1
        iexists _; iexact H2
    · have hz : t.val ≠ 0 := fun e => h0 (by rw [e])
      rw [heldAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) (msW t) (hsW t) (msX t) (hsX t) (msO t) (hsO t) accM (Memref.isWhole_whole _) (fun h => h0 ((isFirst_iff t).mp h)) hnl (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid m c t _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters, every weakly fair execution of @main terminates, and in every final state each
    array of the pipeline holds what the library computes from the proof data and every other unscoped buffer what
    the operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`: @main runs to the end, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.PayloadValue.lean ====
/-
  The kernel body's two payloads read at an index, at the ideal values.

  The first payload is the zero splat. The second is the accumulator block plus the product of the
  2048 × 1024 weight block with the 1024 × 256 block of augmented features: the narrowing of the weights is the
  identity on extended reals, the shape casts are identities, and the one-axis contraction's positions are the
  numbers below 1024, the left operand read at (row, position) and the right at (position, column).
-/
import proofs.«117033_j13434657702449_1_alg».proof.Proof.Gen.KernelIdeal.Skeleton
import proofs.«117033_j13434657702449_1_alg».proof.Proof.LibContraction
import Idealize.ShloMosaic.Lib.ValueIdx
import Idealize.ShloMosaic.Lib.Pipeline.Value
import Idealize.ShloMosaic.PureOps.Ideal.Laws

noncomputable section

open scoped BigOperators

namespace Cert.KernelIdeal.PayloadValue

open Cert.KernelIdeal Cert.KernelIdeal.Gen Idealize.ShloMosaic ValueIdx

/-- The first payload is zero everywhere. -/
theorem pay1_apply (y : S2048x256.Idx) : k0_pay1 (F := Ideal) y = 0 := by
  unfold k0_pay1
  rw [shapeCast_self]
  exact Ideal.ofBits_zero_f32

/-- The left operand of the contraction, at the position `i`, is read at (row, `i`). -/
theorem lhs_at (r : Fin 2048) (c : Fin 256) (i : Fin 1024) :
    dot_S2048x1024_S1024x256_S2048x256_1_0_0_1_n_n.lhsIdx (ix2 r c)
        ((Cert.Lib.Contraction.contrFin dot_S2048x1024_S1024x256_S2048x256_1_0_0_1_n_n (cl := 1) rfl 1024 rfl).symm i)
      = ix2 r i := by
  funext a
  match a with
  | ⟨0, _⟩ =>
    exact Fin.ext (Cert.Lib.Contraction.lhs_free dot_S2048x1024_S1024x256_S2048x256_1_0_0_1_n_n (nl := 0) rfl rfl (ix2 r c) _ (by decide))
  | ⟨1, _⟩ =>
    exact Fin.ext (Cert.Lib.Contraction.lhs_contracted dot_S2048x1024_S1024x256_S2048x256_1_0_0_1_n_n (cl := 1) rfl 1024 rfl (ix2 r c) i)

/-- The right operand of the contraction, at the position `i`, is read at (`i`, column). -/
theorem rhs_at (r : Fin 2048) (c : Fin 256) (i : Fin 1024) :
    dot_S2048x1024_S1024x256_S2048x256_1_0_0_1_n_n.rhsIdx (ix2 r c)
        ((Cert.Lib.Contraction.contrFin dot_S2048x1024_S1024x256_S2048x256_1_0_0_1_n_n (cl := 1) rfl 1024 rfl).symm i)
      = ix2 i c := by
  funext a
  match a with
  | ⟨0, _⟩ =>
    exact Fin.ext (Cert.Lib.Contraction.rhs_contracted dot_S2048x1024_S1024x256_S2048x256_1_0_0_1_n_n (cl := 1) (cr := 0) rfl rfl 1024 rfl (ix2 r c) i)
  | ⟨1, _⟩ =>
    exact Fin.ext (Cert.Lib.Contraction.rhs_free dot_S2048x1024_S1024x256_S2048x256_1_0_0_1_n_n (nl := 0) (nr := 1) rfl rfl rfl rfl (ix2 r c) _ (by decide))

/-- The second payload at (row, column): the accumulator there plus the row of weights times the column of features. -/
theorem pay2_apply (v3 : Vec Ideal S2048x1024 .f32) (v5 : Vec Ideal S2048x256 .f32) (v6 : Vec Ideal S1024x256 .bf16)
    (r : Fin 2048) (c : Fin 256) :
    k0_pay2 (F := Ideal) v3 v5 v6 (ix2 r c) = v5 (ix2 r c) + ∑ j : Fin 1024, v3 (ix2 r j) * v6 (ix2 j c) := by
  unfold k0_pay2
  rw [shapeCast_self, shapeCast_self, addf_apply]
  unfold matmul
  rw [Ideal.matmul_constant_zero_apply,
    Cert.Lib.Contraction.sum_contr dot_S2048x1024_S1024x256_S2048x256_1_0_0_1_n_n (cl := 1) rfl 1024 rfl]
  refine congrArg (v5 (ix2 r c) + ·) (Finset.sum_congr rfl fun i _ => ?_)
  rw [lhs_at, rhs_at, truncf_apply]

end Cert.KernelIdeal.PayloadValue

end
-- ==== Proof.BlockSum.lean ====
/-
  A sum over 8192 terms taken in eight consecutive blocks of 1024.

  `partialSum f k` is the sum of the terms with index below `1024 * k`. It starts at zero, each step adds the next
  block's 1024 terms, and after eight steps it is the whole sum. Stated over any additive commutative monoid, so no
  property of the terms (finiteness, sign) is used.
-/
import Mathlib.Algebra.BigOperators.Group.Finset.Basic
import Mathlib.Algebra.BigOperators.Fin

open scoped BigOperators

namespace Cert.Modularity

variable {M : Type*} [AddCommMonoid M]

/-- The terms with index below `1024 * k`, summed. -/
def partialSum (f : Fin 8192 → M) (k : ℕ) : M := ∑ j : Fin 8192, if j.val < 1024 * k then f j else 0

/-- Before the first block nothing has been added: no index is below zero. -/
theorem partialSum_zero (f : Fin 8192 → M) : partialSum f 0 = 0 := by
  unfold partialSum
  exact Finset.sum_eq_zero fun j _ => if_neg (by omega)

/-- One step adds block `k`: an index is below `1024 * (k + 1)` exactly when it is below `1024 * k` or lies in
    `[1024 * k, 1024 * (k + 1))`, and the latter indices are `1024 * k + b` for `b` below 1024, each once. -/
theorem partialSum_succ (f : Fin 8192 → M) (k : ℕ) (hk : k < 8) :
    partialSum f (k + 1) = partialSum f k + ∑ b : Fin 1024, f ⟨1024 * k + b.val, by have := b.isLt; omega⟩ := by
  unfold partialSum
  have hsplit : ∀ j : Fin 8192, (if j.val < 1024 * (k + 1) then f j else 0)
      = (if j.val < 1024 * k then f j else 0)
        + (if 1024 * k ≤ j.val ∧ j.val < 1024 * (k + 1) then f j else 0) := by
    intro j
    by_cases h1 : j.val < 1024 * k
    · rw [if_pos h1, if_pos (by omega), if_neg (by omega), add_zero]
    · by_cases h2 : j.val < 1024 * (k + 1)
      · rw [if_neg h1, if_pos h2, if_pos ⟨by omega, h2⟩, zero_add]
      · rw [if_neg h1, if_neg h2, if_neg (fun h => h2 h.2), add_zero]
  rw [Finset.sum_congr rfl fun j _ => hsplit j, Finset.sum_add_distrib]
  congr 1
  rw [← Finset.sum_filter]
  symm
  refine Finset.sum_bij (fun b _ => (⟨1024 * k + b.val, by have := b.isLt; omega⟩ : Fin 8192)) ?_ ?_ ?_ ?_
  · intro b _
    have := b.isLt
    exact Finset.mem_filter.mpr ⟨Finset.mem_univ _, by show 1024 * k ≤ 1024 * k + b.val; omega,
      by show 1024 * k + b.val < 1024 * (k + 1); omega⟩
  · intro a _ b _ h
    have h' : 1024 * k + a.val = 1024 * k + b.val := congrArg Fin.val h
    exact Fin.ext (by omega)
  · intro j hj
    have hj' := (Finset.mem_filter.mp hj).2
    exact ⟨⟨j.val - 1024 * k, by omega⟩, Finset.mem_univ _,
      Fin.ext (by show 1024 * k + (j.val - 1024 * k) = j.val; omega)⟩
  · intro b _
    rfl

/-- After eight blocks every index has been reached: all are below `1024 * 8`. -/
theorem partialSum_eight (f : Fin 8192 → M) : partialSum f 8 = ∑ j : Fin 8192, f j := by
  unfold partialSum
  exact Finset.sum_congr rfl fun j _ => if_pos (by have := j.isLt; omega)

end Cert.Modularity
-- ==== Proof.RegionValue.lean ====
/-
  What the pallas_call's result array holds after the run, at the ideal instance: the weights times the augmented
  features, entry by entry.

  The body's runs leave, in the accumulator and in the output's staging buffer, payloads of the point's two blocks and of
  what the accumulator held: a first step leaves `0 + (block product)`, every other step `(what was there) + (block
  product)`, and a last step copies the accumulator into the output's buffer. Point `t = 8 i + k` reads rows
  `2048 i …` and columns `1024 k …` of the weights and rows `1024 k …` of the augmented features, so by induction
  on the point the accumulator after point `t` holds, at (r, q), the sum over the first `k + 1` blocks of 1024 of
  `w (2048 i + r) j * xa j q`; after the eighth step that is the sum over all 8192 `j`. The last steps' blocks tile
  the result array.
-/
import proofs.«117033_j13434657702449_1_alg».proof.Proof.IdealFrame.Frame
import proofs.«117033_j13434657702449_1_alg».proof.Proof.PayloadValue
import proofs.«117033_j13434657702449_1_alg».proof.Proof.BlockSum
import Idealize.ShloMosaic.Lib.Pipeline.Value

set_option maxRecDepth 16384

noncomputable section

open scoped BigOperators

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Frm

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs' found pieces are the payloads -/

theorem hz : (![0, 0] : Fin 2 → Nat) = fun _ => 0 := funext fun a => by fin_cases a <;> rfl

/-- A middle step leaves the accumulator it found plus the product of the point's two blocks. -/
theorem accMid_eq (c : Dev nD) (t : Fin cfg0.N) (h0 : ¬isFirst (grid0.coords t)) (h1 : ¬isLast (grid0.coords t)) (xs : Vec F S2048x256 .f32) :
    accMid m c t h0 h1 xs = k0_pay2 (iblk m c 0 t) xs (iblk m c 1 t) := by
  unfold accMid
  rw [View.read_writes_eq_canon _ _ _ (coverMid m c t h0 h1 xs)]
  unfold runMid
  dsimp only
  sl_unfold_words
  rw [View.canon_unit_zero (S := S2048x256) hz]
  simp only [View.readAt_eq_ld, Memref.IsWhole.read_unread, View.ld_unit_zero (S := S2048x1024) hz, View.ld_unit_zero (S := S2048x256) hz, View.ld_unit_zero (S := S1024x256) hz]
  exact congrArg (fun z => k0_pay2 (iblk m c 0 t) z (iblk m c 1 t)) ((Memref.isWhole_whole cc0_scratch0 : (accM : Memref sig .tc .vmem S2048x256 .f32).IsWhole).read_unread xs)

/-- A first step clears the accumulator, reads the zeros back, and leaves them plus the product of the point's blocks. -/
theorem accFirst_eq (c : Dev nD) (t : Fin cfg0.N) (h0 : isFirst (grid0.coords t)) (h1 : ¬isLast (grid0.coords t)) :
    accFirst m c t h0 h1 = k0_pay2 (iblk m c 0 t) (k0_pay1) (iblk m c 1 t) := by
  unfold accFirst
  rw [View.read_writes_eq_canon _ _ _ (coverFirst m c t h0 h1)]
  unfold runFirst
  dsimp only
  sl_unfold_words
  rw [View.canon_cons_unit_zero (S := S2048x256) hz, View.readCov_unit_zero (S := S2048x256) _ hz]
  simp only [View.readAt_eq_ld, Memref.IsWhole.read_unread, View.ld_unit_zero (S := S2048x1024) hz, View.ld_unit_zero (S := S2048x256) hz, View.ld_unit_zero (S := S1024x256) hz]

/-- A last step leaves in the accumulator what a middle step would, -/
theorem accLast_eq (c : Dev nD) (t : Fin cfg0.N) (h0 : ¬isFirst (grid0.coords t)) (h1 : isLast (grid0.coords t)) (xs : Vec F S2048x256 .f32) :
    accLast m c t h0 h1 xs = k0_pay2 (iblk m c 0 t) xs (iblk m c 1 t) := by
  unfold accLast
  rw [View.read_writes_eq_canon _ _ _ (coverLastS m c t h0 h1 xs)]
  unfold runLast
  dsimp only
  sl_unfold_words
  rw [View.canon_unit_zero (S := S2048x256) hz]
  simp only [View.readAt_eq_ld, Memref.IsWhole.read_unread, View.ld_unit_zero (S := S2048x1024) hz, View.ld_unit_zero (S := S2048x256) hz, View.ld_unit_zero (S := S1024x256) hz]
  exact congrArg (fun z => k0_pay2 (iblk m c 0 t) z (iblk m c 1 t)) ((Memref.isWhole_whole cc0_scratch0 : (accM : Memref sig .tc .vmem S2048x256 .f32).IsWhole).read_unread xs)

/-- and copies it, read back, into the output's staging buffer. -/
theorem outLast_eq (c : Dev nD) (t : Fin cfg0.N) (h0 : ¬isFirst (grid0.coords t)) (h1 : isLast (grid0.coords t)) (xs : Vec F S2048x256 .f32) :
    outLast m c t h0 h1 xs = k0_pay2 (iblk m c 0 t) xs (iblk m c 1 t) := by
  unfold outLast
  rw [View.read_writes_eq_canon _ _ _ (coverLastO m c t h0 h1 xs)]
  unfold runLast
  dsimp only
  sl_unfold_words
  rw [View.canon_unit_zero (S := S2048x256) hz, View.readCov_unit_zero (S := S2048x256) _ hz]
  simp only [View.readAt_eq_ld, Memref.IsWhole.read_unread, View.ld_unit_zero (S := S2048x1024) hz, View.ld_unit_zero (S := S2048x256) hz, View.ld_unit_zero (S := S1024x256) hz]
  exact congrArg (fun z => k0_pay2 (iblk m c 0 t) z (iblk m c 1 t)) ((Memref.isWhole_whole cc0_scratch0 : (accM : Memref sig .tc .vmem S2048x256 .f32).IsWhole).read_unread xs)

/-! ## The blocks, read at an index of their arrays -/

/-- Point `t = 8 i + k` reads block (i, k) of the weights, -/
theorem idxW : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
/-- block (k, 0) of the augmented features, -/
theorem idxX : ∀ t : Fin cfg0.N, win0_1.index t 0 = t.val % 8 ∧ win0_1.index t 1 = 0 :=
  (by decide +kernel : ∀ t : Fin grid0.N, win0_1.index t 0 = t.val % 8 ∧ win0_1.index t 1 = 0)
/-- and writes block (i, 0) of the product. -/
theorem idxO : ∀ t : Fin cfg0.N, win0_2.index t 0 = t.val / 8 ∧ win0_2.index t 1 = 0 :=
  (by decide +kernel : ∀ t : Fin grid0.N, win0_2.index t 0 = t.val / 8 ∧ win0_2.index t 1 = 0)

/-- Entry (r, b) of the weights' block at point `t` is entry (2048 i + r, 1024 k + b) of the weights. -/
theorem wblk_apply (c : Dev nD) (t : Fin cfg0.N) (r : Fin 2048) (b : Fin 1024) :
    (iblk m c 0 t : S2048x1024.Idx → Elt F .f32) (ValueIdx.ix2 r b)
      = (V m c main_arg1 : S8192x8192.Idx → Elt F .f32) (ValueIdx.ix2 ⟨2048 * (t.val / 8) + r.val, by have := r.isLt; have := t.isLt; have : cfg0.N = 32 := N_0; omega⟩ ⟨1024 * (t.val % 8) + b.val, by have := b.isLt; omega⟩) := by
  unfold iblk
  rw [View.read_apply]
  show (V m c main_arg1 : S8192x8192.Idx → Elt F .f32) (((cfg0.win 0).blk t).view.emb (ValueIdx.ix2 r b)) = _
  refine congrArg (V m c main_arg1 : S8192x8192.Idx → Elt F .f32) (funext fun a => Fin.ext ?_)
  have hi := idxW t
  match a with
  | ⟨0, _⟩ =>
    show win0_0.index t 0 * 2048 + 1 * r.val = 2048 * (t.val / 8) + r.val
    rw [hi.1]; omega
  | ⟨1, _⟩ =>
    show win0_0.index t 1 * 1024 + 1 * b.val = 1024 * (t.val % 8) + b.val
    rw [hi.2]; omega

/-- Entry (b, q) of the augmented features' block at point `t` is entry (1024 k + b, q) of the augmented features. -/
theorem xblk_apply (c : Dev nD) (t : Fin cfg0.N) (b : Fin 1024) (q : Fin 256) :
    (iblk m c 1 t : S1024x256.Idx → Elt F .bf16) (ValueIdx.ix2 b q)
      = (V m c main_v3 : S8192x256.Idx → Elt F .bf16) (ValueIdx.ix2 ⟨1024 * (t.val % 8) + b.val, by have := b.isLt; omega⟩ q) := by
  unfold iblk
  rw [View.read_apply]
  show (V m c main_v3 : S8192x256.Idx → Elt F .bf16) (((cfg0.win 1).blk t).view.emb (ValueIdx.ix2 b q)) = _
  refine congrArg (V m c main_v3 : S8192x256.Idx → Elt F .bf16) (funext fun a => Fin.ext ?_)
  have hi := idxX t
  match a with
  | ⟨0, _⟩ =>
    show win0_1.index t 0 * 1024 + 1 * b.val = 1024 * (t.val % 8) + b.val
    rw [hi.1]; omega
  | ⟨1, _⟩ =>
    show win0_1.index t 1 * 256 + 1 * q.val = q.val
    rw [hi.2]; omega

end Cert.KernelIdeal.RegionValue

/-! ## At the ideal instance -/

namespace Cert.KernelIdeal.RegionValue

open Idealize.ShloMosaic Idealize.ShloMosaic.TcCoe Idealize.SL.Sem
open Idealize.ShloMosaic.Pipeline (Dat Cfg Window)
open Cert.KernelIdeal Cert.KernelIdeal.Gen Cert.KernelIdeal.Frm Cert.KernelIdeal.PayloadValue Cert.Modularity
open Idealize.ShloMosaic.ValueIdx

variable (m : (ℓ : Loc nD τ sig) → Buf (Elt Ideal) ℓ)

/-- The weights as the region finds them, by coordinates. -/
def wAt (c : Dev nD) (R j : Fin 8192) : EReal := (V m c main_arg1 : S8192x8192.Idx → EReal) (ix2 R j)
/-- The augmented features as the region finds them, by coordinates. -/
def xaAt (c : Dev nD) (j : Fin 8192) (q : Fin 256) : EReal := (V m c main_v3 : S8192x256.Idx → EReal) (ix2 j q)

/-- Row `r` of point `t`'s row block, as a row of the weights. -/
def rowOf (t : Fin cfg0.N) (r : Fin 2048) : Fin 8192 :=
  ⟨2048 * (t.val / 8) + r.val, by have := r.isLt; have := t.isLt; have : cfg0.N = 32 := N_0; omega⟩

/-- The terms of entry (rowOf t r, q) of the product. -/
def term (c : Dev nD) (t : Fin cfg0.N) (r : Fin 2048) (q : Fin 256) (j : Fin 8192) : EReal := wAt m c (rowOf t r) j * xaAt m c j q

/-- Point `t`'s block of the weights and of the augmented features, at their literal types. -/
abbrev wblk (c : Dev nD) (t : Fin cfg0.N) : Vec Ideal S2048x1024 .f32 := iblk m c 0 t
abbrev xblk (c : Dev nD) (t : Fin cfg0.N) : Vec Ideal S1024x256 .bf16 := iblk m c 1 t

/-- The product of point `t`'s two blocks at (r, q) is block `k = t % 8` of those terms. -/
theorem block_product (c : Dev nD) (t : Fin cfg0.N) (r : Fin 2048) (q : Fin 256) :
    ∑ b : Fin 1024, wblk m c t (ix2 r b) * xblk m c t (ix2 b q)
      = ∑ b : Fin 1024, term m c t r q ⟨1024 * (t.val % 8) + b.val, by have := b.isLt; omega⟩ :=
  Finset.sum_congr rfl fun b _ => congrArg₂ (· * ·) (wblk_apply m c t r b) (xblk_apply m c t b q)

/-- One step on an accumulator holding the first `k` blocks' sum leaves the first `k + 1` blocks' sum. -/
theorem step_apply (c : Dev nD) (t : Fin cfg0.N) (xs : Vec Ideal S2048x256 .f32) (r : Fin 2048) (q : Fin 256)
    (hxs : xs (ix2 r q) = partialSum (term m c t r q) (t.val % 8)) :
    k0_pay2 (F := Ideal) (wblk m c t) xs (xblk m c t) (ix2 r q) = partialSum (term m c t r q) (t.val % 8 + 1) := by
  rw [pay2_apply, hxs, partialSum_succ _ _ (Nat.mod_lt _ (by norm_num))]
  exact congrArg (partialSum (term m c t r q) (t.val % 8) + ·) (block_product m c t r q)

/-- THE INVARIANT. After the body at position `n` the accumulator holds, at (r, q), the sum of the point's row's terms
    over the first `n % 8 + 1` blocks. -/
theorem acc_eq (c : Dev nD) : ∀ (n : ℕ) (hn : n < cfg0.N) (r : Fin 2048) (q : Fin 256),
    (heldAt m c n hn).2 (ix2 r q) = partialSum (term m c ⟨n, hn⟩ r q) (n % 8 + 1)
  | 0, hn, r, q => by
    rw [heldAt_first m c ⟨0, hn⟩ (Nat.zero_mod _)]
    dsimp only
    rw [accFirst_eq]
    exact step_apply m c ⟨0, hn⟩ _ r q (by rw [pay1_apply]; exact (partialSum_zero _).symm)
  | n + 1, hn, r, q => by
    have hN : cfg0.N = 32 := N_0
    by_cases h0 : (n + 1) % 8 = 0
    · rw [heldAt_first m c ⟨n + 1, hn⟩ h0]
      dsimp only
      rw [accFirst_eq]
      refine step_apply m c ⟨n + 1, hn⟩ _ r q ?_
      rw [pay1_apply]
      show (0 : EReal) = partialSum _ ((n + 1) % 8)
      rw [h0]; exact (partialSum_zero _).symm
    · have ih := acc_eq c n (Nat.lt_of_succ_lt hn) r q
      have hrow : term m c ⟨n, Nat.lt_of_succ_lt hn⟩ r q = term m c ⟨n + 1, hn⟩ r q := by
        funext j; unfold term rowOf
        have e : (⟨2048 * (n / 8) + r.val, by have := r.isLt; omega⟩ : Fin 8192) = ⟨2048 * ((n + 1) / 8) + r.val, by have := r.isLt; omega⟩ :=
          Fin.ext (by show 2048 * (n / 8) + r.val = 2048 * ((n + 1) / 8) + r.val; omega)
        exact congrArg (fun R => wAt m c R j * xaAt m c j q) e
      have hk : n % 8 + 1 = (n + 1) % 8 := by omega
      have hprev : (heldAt m c n (Nat.lt_of_succ_lt hn)).2 (ix2 r q) = partialSum (term m c ⟨n + 1, hn⟩ r q) ((n + 1) % 8) := by
        rw [ih, hrow, hk]
      by_cases h1 : (n + 1) % 8 = 7
      · rw [heldAt_last m c ⟨n + 1, hn⟩ h1]
        dsimp only
        rw [accLast_eq]
        exact step_apply m c ⟨n + 1, hn⟩ _ r q hprev
      · rw [heldAt_mid m c ⟨n + 1, hn⟩ h0 h1]
        dsimp only
        rw [accMid_eq]
        exact step_apply m c ⟨n + 1, hn⟩ _ r q hprev

/-- At a last step the output's staging buffer holds what the accumulator does. -/
theorem out_eq_acc (c : Dev nD) (t : Fin cfg0.N) (h1 : t.val % 8 = 7) :
    (heldAt m c t.val t.isLt).1 = (heldAt m c t.val t.isLt).2 := by
  rw [heldAt_last m c t h1]
  dsimp only
  rw [outLast_eq, accLast_eq]

/-- The product: entry (R, q) is the sum over all `j` of `w R j * xa j q`. -/
def prodArr (c : Dev nD) : S8192x256.Idx → EReal :=
  fun y => ∑ j : Fin 8192, wAt m c ⟨(y 0).val, idx2_lt0 y⟩ j * xaAt m c j ⟨(y 1).val, idx2_lt1 y⟩

/-- Entry (r, q) of the output's block at point `t` is entry (2048 i + r, q) of the result array. -/
theorem oblk_emb (t : Fin cfg0.N) (r : Fin 2048) (q : Fin 256) :
    (((cfg0.win 2).blk t).view.emb (ix2 r q) : S8192x256.Idx) = ix2 (rowOf t r) q := by
  funext a; apply Fin.ext
  have hi := idxO t
  match a with
  | ⟨0, _⟩ =>
    show win0_2.index t 0 * 2048 + 1 * r.val = 2048 * (t.val / 8) + r.val
    rw [hi.1]; omega
  | ⟨1, _⟩ =>
    show win0_2.index t 1 * 256 + 1 * q.val = q.val
    rw [hi.2]; omega

/-- WHAT A WRITE-BACK WRITES: at a last step, block `i` of the product. -/
theorem flushed_eq (c : Dev nD) (t : Fin cfg0.N) (hf : (cfg0.win 2).flush t = true) :
    (dats m 0 c).flushed 2 t = ((cfg0.win 2).blk t).view.read (Elt Ideal) (prodArr m c) := by
  have h7 : t.val % 8 = 7 := (flush0_2 t).mp hf
  show (cfg0.win 2).cut (grid0.coords t) ((dats m 0 c).after 2 t) = _
  rw [after_o, out_eq_acc m c t h7]
  funext j
  obtain ⟨r, q, rfl⟩ : ∃ (r : Fin 2048) (q : Fin 256), j = ix2 r q := ⟨j 0, j 1, eq_ix2 j⟩
  show (heldAt m c t.val t.isLt).2 (ix2 r q) = prodArr m c (((cfg0.win 2).blk t).view.emb (ix2 r q))
  rw [acc_eq m c t.val t.isLt r q, oblk_emb, h7, partialSum_eight]
  rfl

/-- An index of the result array is in point `t`'s block iff each coordinate is in the block's range on its axis. -/
theorem mem_oblk (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v4).slice (win0_2.rect t)).set ↔ _
  rw [View.set_slice_whole, Rect.mem_set_unit]
  exact Iff.rfl

/-- The last steps' blocks tile the result array: row `R` is in the block written at point `8 (R / 2048) + 7`. -/
theorem covered (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 32 := N_0
  let t : Fin cfg0.N := ⟨8 * ((i 0).val / 2048) + 7, by omega⟩
  have ht : t.val = 8 * ((i 0).val / 2048) + 7 := rfl
  refine ⟨t, (flush0_2 t).mpr (by omega), ?_⟩
  rw [mem_oblk]
  have hx := idxO t
  intro a
  match a with
  | ⟨0, _⟩ =>
    show win0_2.index t 0 * 2048 ≤ (i 0).val ∧ (i 0).val < win0_2.index t 0 * 2048 + 2048
    rw [hx.1]; omega
  | ⟨1, _⟩ =>
    show win0_2.index t 1 * 256 ≤ (i 1).val ∧ (i 1).val < win0_2.index t 1 * 256 + 256
    rw [hx.2]; omega

/-- THE RESULT ARRAY after the run: the product. -/
theorem final_o (c : Dev nD) : (dats m 0 c).arrAt 2 cfg0.N = prodArr m c :=
  (dats m 0 c).arrAt_eq_of_cover 2 (prodArr m c) (flushed_eq m c) covered

end Cert.KernelIdeal.RegionValue

end
-- ==== Proof.Spec.lean ====
/-
  Newman modularity of a weighted graph, as the two programs compute it.

  With weights `w r j` (an 8192 × 8192 matrix), features `x r p` (8192 × 128), degrees `d r = ∑ j, w r j` and
  total weight `m = max ((∑ r, d r) / 2) ε`, both programs return `-(∑ r p, x r p * (B x) r p) / (2 m)` for the modularity
  matrix `B = w - d dᵀ / (2 m)`. The reference forms `B` and multiplies it by `x`. The kernel multiplies `w` once by
  the AUGMENTED features `[x | 1 | 0]` (256 columns: the 128 of `x`, a column of ones, zeros), so that one product
  carries `w x` in its first 128 columns and the degrees in column 128, and forms `(B x) r p = (w x) r p - d r * (∑ r', d r' * x r' p) / (2 m)`
  from those. The two agree, for finite entries, by distributing the product over the difference and pulling `d r / (2 m)`
  out of the sum over `j`.

  Everything here is stated over the extended reals with the ideal instance's own quotient `Ideal.div`, and with the two
  literals kept as the words both programs print.
-/
import Idealize.ShloMosaic.PureOps.Ideal.Laws
import Idealize.ShloMosaic.Lib.ValueIdx

noncomputable section

open scoped BigOperators

namespace Cert.Modularity

open Idealize.ShloMosaic

/-- The literal `2.0` both programs divide and multiply by. -/
def two : EReal := Ideal.ofBits .f32 0x40000000#32

/-- The floor `1e-8` both programs put under the total weight. -/
def eps : EReal := Ideal.ofBits .f32 0x322BCC77#32

/-- Column 128 of the augmented product: the degrees. -/
def degCol : Fin 256 := ⟨128, by norm_num⟩

/-- Column `p` of the features, as a column of the augmented product. -/
def featCol (p : Fin 128) : Fin 256 := ⟨p.val, lt_trans p.isLt (by norm_num)⟩

/-- The augmented features `[x | 1 | 0]`: the features in columns below 128, ones in column 128, zeros after. -/
def xaug (x : Fin 8192 → Fin 128 → EReal) (j : Fin 8192) (c : Fin 256) : EReal :=
  if h : c.val < 128 then x j ⟨c.val, h⟩ else if c.val = 128 then 1 else 0

/-- The weights times the augmented features: what the kernel's one matrix product holds. -/
def prodAug (w : Fin 8192 → Fin 8192 → EReal) (x : Fin 8192 → Fin 128 → EReal) (r : Fin 8192) (c : Fin 256) : EReal :=
  ∑ j : Fin 8192, w r j * xaug x j c

/-- What the kernel's program makes of the features and of a 256-column array `out` (its matrix product): degrees from
    column 128, `w x` from the first 128 columns, then the modularity. -/
def kernelTail (x : Fin 8192 → Fin 128 → EReal) (out : Fin 8192 → Fin 256 → EReal) : EReal :=
  -(Ideal.div
      (∑ r : Fin 8192, ∑ p : Fin 128,
        x r p * (out r (featCol p)
          - Ideal.div (out r degCol * ∑ r' : Fin 8192, out r' degCol * x r' p)
              (two * max (Ideal.div (∑ r' : Fin 8192, out r' degCol) two) eps)))
      (two * max (Ideal.div (∑ r' : Fin 8192, out r' degCol) two) eps))

/-- What the reference makes of the features and the weights. -/
def reference (x : Fin 8192 → Fin 128 → EReal) (w : Fin 8192 → Fin 8192 → EReal) : EReal :=
  -(Ideal.div
      (∑ r : Fin 8192, ∑ p : Fin 128,
        x r p * ∑ j : Fin 8192,
          (w r j - Ideal.div ((∑ j' : Fin 8192, w r j') * ∑ j' : Fin 8192, w j j')
              (two * max (Ideal.div (∑ r' : Fin 8192, ∑ j' : Fin 8192, w r' j') two) eps)) * x j p)
      (two * max (Ideal.div (∑ r' : Fin 8192, ∑ j' : Fin 8192, w r' j') two) eps))

end Cert.Modularity

end
-- ==== Proof.KernelHost.lean ====
/-
  The kernel program's host operations before and after its matrix product, read as the augmented features and as the
  modularity formed from the product's columns.
-/
import proofs.«117033_j13434657702449_1_alg».proof.Proof.Gen.KernelIdeal.Launch
import proofs.«117033_j13434657702449_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.ValueIdxRank1
import Idealize.ShloMosaic.PureOps.Ideal.Laws

noncomputable section

open scoped BigOperators

namespace Cert.KernelIdeal.HostValue

open Cert.KernelIdeal Cert.KernelIdeal.Gen Idealize.ShloMosaic Idealize.ShloMosaic.ValueIdx

open StableHlo in
/-- Rewrites each operation's result at a reference to its function's value, or to what was there before. -/
macro "results_rw" : tactic =>
  `(tactic| (repeat (first
               | rw [nullary_result] | rw [unary_result] | rw [binary_result]
               | rw [reshape_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Nary3
variable {τ' : Topo} {sig' : RefSig} {Val : EltTy → Type}

/-- A three-operand operation's result, each operand's contents at its own reference. -/
theorem nary3_result {x a b y : Ref sig' .tc}
    (f : ((k : Fin 3) → ((![x, a, b] : Fin 3 → Ref sig' .tc) k).ty.Contents Val) → y.ty.Contents Val) (hxs hy)
    (V : Valuation τ' sig' Val) :
    (StableHlo.nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl
end Nary3

/-! ## The words the program spells -/

/-- The bf16 word `0x3F80` denotes `1`. -/
theorem ofBits_one_bf16 : Ideal.ofBits .bf16 0x3F80#16 = 1 := by
  simp [Ideal.ofBits, Ideal.ieee, -EReal.coe_mul]; norm_num

/-- The bf16 word `0x0000` denotes `0`. -/
theorem ofBits_zero_bf16 : Ideal.ofBits .bf16 0x0000#16 = 0 := by
  simp [Ideal.ofBits, Ideal.ieee]

/-! ## A scalar broadcast to a matrix -/

/-- A scalar broadcast along no dimension reads the scalar at every index. -/
theorem broadcastInDim_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-! ## The three-piece concatenation along the columns -/

/-- The concatenation of 128, 1 and 127 columns read at `(j, c)`: the piece whose span holds `c`. -/
theorem concat3_apply {α : Type} (x : S8192x128.Idx → α) (o : S8192x1.Idx → α) (z : S8192x127.Idx → α)
    (h : Shape.Concatenates [S8192x128, S8192x1, S8192x127] S8192x256 1) (j : Fin 8192) (c : Fin 256) :
    concatenate S8192x256 1 [⟨S8192x128, x⟩, ⟨S8192x1, o⟩, ⟨S8192x127, z⟩] h (ix2 j c)
      = if hc : c.val < 128 then x (ix2 j ⟨c.val, hc⟩)
        else if hc1 : c.val = 128 then o (ix2 j 0)
        else z (ix2 j ⟨c.val - 129, by have := c.isLt; omega⟩) := by
  by_cases hc : c.val < 128
  · rw [dif_pos hc]
    refine concatenate_apply_piece 1 [⟨S8192x128, x⟩, ⟨S8192x1, o⟩, ⟨S8192x127, z⟩] h (ix2 j c) 0 (by simp) S8192x128 x rfl rfl 0 rfl (ix2 j ⟨c.val, hc⟩) ?_ ?_
    · intro b hb
      match b with
      | ⟨0, _⟩ => rfl
      | ⟨1, _⟩ => exact absurd rfl hb
    · exact Nat.zero_add _
  · rw [dif_neg hc]
    by_cases hc1 : c.val = 128
    · rw [dif_pos hc1]
      refine concatenate_apply_piece 1 [⟨S8192x128, x⟩, ⟨S8192x1, o⟩, ⟨S8192x127, z⟩] h (ix2 j c) 1 (by simp) S8192x1 o rfl rfl 128 rfl (ix2 j 0) ?_ ?_
      · intro b hb
        match b with
        | ⟨0, _⟩ => rfl
        | ⟨1, _⟩ => exact absurd rfl hb
      · show 128 + 0 = c.val
        omega
    · rw [dif_neg hc1]
      refine concatenate_apply_piece 1 [⟨S8192x128, x⟩, ⟨S8192x1, o⟩, ⟨S8192x127, z⟩] h (ix2 j c) 2 (by simp) S8192x127 z rfl rfl 129 rfl
        (ix2 j ⟨c.val - 129, by have := c.isLt; omega⟩) ?_ ?_
      · intro b hb
        match b with
        | ⟨0, _⟩ => rfl
        | ⟨1, _⟩ => exact absurd rfl hb
      · show 129 + (c.val - 129) = c.val
        omega

/-! ## The operations before the matrix product -/

/-- The operations before the product leave in their result the concatenation of the features, a column of the word
    `0x3F80` and 127 columns of the word `0x0000`. -/
theorem prefix_v3_eq (val : Valuation τ sig (Elt Ideal)) :
    (StableHlo.after (hostOps0 (F := Ideal)) val (Proc.devRef .tc main_v3) : S8192x256.Idx → EReal)
      = concatenate S8192x256 1
          [⟨S8192x128, (truncf (F := Ideal) (s := S8192x128) (φ := .f32) .bf16 (val (Proc.devRef .tc main_arg0)) bitsLt_bf16_f32 : FVec Ideal S8192x128 .bf16)⟩,
           ⟨S8192x1, (broadcastInDim S8192x1 ![] bcast_S_S8192x1 (constant (F := Ideal) S_ .bf16 0x3F80#16) : FVec Ideal S8192x1 .bf16)⟩,
           ⟨S8192x127, (broadcastInDim S8192x127 ![] bcast_S_S8192x127 (constant (F := Ideal) S_ .bf16 0x0000#16) : FVec Ideal S8192x127 .bf16)⟩]
          concatenates_S8192x128_S8192x1_S8192x127_S8192x256_d1 := by
  simp only [StableHlo.after_cons, StableHlo.after_nil]
  rw [nary3_result]
  results_rw
  rfl

/-- The operations before the product write the augmented features. -/
theorem prefix_v3 (val : Valuation τ sig (Elt Ideal)) (j : Fin 8192) (c : Fin 256) :
    (StableHlo.after (hostOps0 (F := Ideal)) val (Proc.devRef .tc main_v3) : S8192x256.Idx → EReal) (ix2 j c)
      = Cert.Modularity.xaug (fun a p => (val (Proc.devRef .tc main_arg0) : S8192x128.Idx → EReal) (ix2 a p)) j c := by
  rw [prefix_v3_eq, concat3_apply]
  unfold Cert.Modularity.xaug
  by_cases hc : c.val < 128
  · rw [dif_pos hc, dif_pos hc]
    rfl
  · rw [dif_neg hc, dif_neg hc]
    by_cases hc1 : c.val = 128
    · rw [dif_pos hc1, if_pos hc1, broadcastInDim_scalar_apply]
      exact ofBits_one_bf16
    · rw [dif_neg hc1, if_neg hc1, broadcastInDim_scalar_apply]
      exact ofBits_zero_bf16

/-- They write neither argument. -/
theorem prefix_arg0 (val : Valuation τ sig (Elt Ideal)) :
    StableHlo.after (hostOps0 (F := Ideal)) val (Proc.devRef .tc main_arg0) = val (Proc.devRef .tc main_arg0) := by
  after_results

theorem prefix_arg1 (val : Valuation τ sig (Elt Ideal)) :
    StableHlo.after (hostOps0 (F := Ideal)) val (Proc.devRef .tc main_arg1) = val (Proc.devRef .tc main_arg1) := by
  after_results

/-! ## The operations after the matrix product, as functions of the features and the product -/

open Cert.Modularity (two eps degCol featCol kernelTail)

/-- The degrees: column 128 of the product, as a vector. -/
def dvec (o : FVec Ideal S8192x256 .f32) : FVec Ideal S8192 .f32 :=
  shapeCast S8192 (extractStridedSlice S8192x1 ![0, 128] o slices_S8192x256_S8192x1_0_128) shapeCasts_S8192x1_S8192

/-- The total weight, floored. -/
def mval (o : FVec Ideal S8192x256 .f32) : FVec Ideal S_ .f32 :=
  maximumf
    (Host.divf (Host.reduceAdd (dvec o) (constant (F := Ideal) S_ .f32 0x00000000#32) reducesTo_S8192_S_d0 h_S_)
      (constant (F := Ideal) S_ .f32 0x40000000#32))
    (constant (F := Ideal) S_ .f32 0x322BCC77#32)

/-- Twice the total weight. -/
def twoM (o : FVec Ideal S8192x256 .f32) : FVec Ideal S_ .f32 :=
  mulf (constant (F := Ideal) S_ .f32 0x40000000#32) (mval o)

/-- The degrees laid along every feature column. -/
def dcol (o : FVec Ideal S8192x256 .f32) : FVec Ideal S8192x128 .f32 :=
  broadcastInDim S8192x128 ![0, 1] bcast_S8192x1_S8192x128_0_1 (broadcastInDim S8192x1 ![0] bcast_S8192_S8192x1_0 (dvec o))

/-- The degree-weighted column sums of the features. -/
def svec (x : FVec Ideal S8192x128 .f32) (o : FVec Ideal S8192x256 .f32) : FVec Ideal S128 .f32 :=
  Host.reduceAdd (mulf (dcol o) x) (constant (F := Ideal) S_ .f32 0x00000000#32) reducesTo_S8192x128_S128_d0 h_S_

/-- The summand: features times the modularity matrix applied to the features. -/
def summand (x : FVec Ideal S8192x128 .f32) (o : FVec Ideal S8192x256 .f32) : FVec Ideal S8192x128 .f32 :=
  mulf x
    (subf (extractStridedSlice S8192x128 ![0, 0] o slices_S8192x256_S8192x128_0_0)
      (Host.divf
        (mulf (dcol o)
          (broadcastInDim S8192x128 ![0, 1] bcast_S1x128_S8192x128_0_1 (broadcastInDim S1x128 ![1] bcast_S128_S1x128_1 (svec x o))))
        (broadcastInDim S8192x128 ![] bcast_S_S8192x128 (twoM o))))

/-- The whole tail. -/
def tailFn (x : FVec Ideal S8192x128 .f32) (o : FVec Ideal S8192x256 .f32) : FVec Ideal S_ .f32 :=
  Host.negf
    (Host.divf
      (Host.reduceAdd (summand x o) (constant (F := Ideal) S_ .f32 0x00000000#32) reducesTo_S8192x128_S_d0_1 h_S_)
      (twoM o))

/-! ## Each stage read at an index -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The degrees at `r`: the product at `(r, 128)`. -/
theorem dvec_apply (o : FVec Ideal S8192x256 .f32) (r : Fin 8192) : dvec o (ix1 r) = o (ix2 r degCol) := by
  unfold dvec
  refine (shapeCast_apply _ shapeCasts_S8192x1_S8192 (ix1 r) (ix2 r (0 : Fin 1)) ?_).trans ?_
  · rw [Shape.rowMajor_val_two, Shape.rowMajor_val_one]
    show r.val * 1 + 0 = r.val
    omega
  · exact slice2_axis1_apply 128 o slices_S8192x256_S8192x1_0_128 r 0 degCol rfl

/-- The floored total weight. -/
theorem mval_apply (o : FVec Ideal S8192x256 .f32) (i : S_.Idx) :
    mval o i = max (Ideal.div (∑ r : Fin 8192, o (ix2 r degCol)) two) eps := by
  unfold mval
  show max (Ideal.div (Ideal.hostReduceAdd reducesTo_S8192_S_d0 (dvec o) (Ideal.ofBits .f32 0x00000000#32) i) two) eps = _
  rw [Ideal.hostReduceAdd_total reducesTo_S8192_S_d0 (fun b => b.elim0), Ideal.ofBits_zero_f32, zero_add, sum_idx1]
  simp only [dvec_apply]

/-- Twice the floored total weight. -/
theorem twoM_apply (o : FVec Ideal S8192x256 .f32) (i : S_.Idx) :
    twoM o i = two * max (Ideal.div (∑ r : Fin 8192, o (ix2 r degCol)) two) eps := by
  unfold twoM
  show two * mval o i = _
  rw [mval_apply]

/-- The degrees along the columns: at `(r, p)` the degree of `r`. -/
theorem dcol_apply (o : FVec Ideal S8192x256 .f32) (r : Fin 8192) (p : Fin 128) : dcol o (ix2 r p) = o (ix2 r degCol) := by
  unfold dcol
  refine (broadcastInDim_apply _ bcast_S8192x1_S8192x128_0_1 _ (ix2 r p) (ix2 r (0 : Fin 1)) ?_).trans ?_
  · intro a
    match a with
    | ⟨0, _⟩ => rfl
    | ⟨1, _⟩ => rfl
  refine (broadcastInDim_apply _ bcast_S8192_S8192x1_0 _ (ix2 r (0 : Fin 1)) (ix1 r) ?_).trans (dvec_apply o r)
  intro a
  match a with
  | ⟨0, _⟩ => rfl

/-- The degree-weighted sum of feature column `p`. -/
theorem svec_apply (x : FVec Ideal S8192x128 .f32) (o : FVec Ideal S8192x256 .f32) (p : Fin 128) :
    svec x o (ix1 p) = ∑ r : Fin 8192, o (ix2 r degCol) * x (ix2 r p) := by
  unfold svec
  have hR : S8192x128.Reduces [0] S128 := by decide
  show Ideal.hostReduceAdd reducesTo_S8192x128_S128_d0 (mulf (dcol o) x) (Ideal.ofBits .f32 0x00000000#32) (ix1 p) = _
  rw [Ideal.hostReduceAdd_single reducesTo_S8192x128_S128_d0 hR, Ideal.ofBits_zero_f32, zero_add]
  show ∑ r : Fin 8192, mulf (dcol o) x (hR.lift (ix1 p) r) = _
  refine Finset.sum_congr rfl fun r _ => ?_
  have e : hR.lift (ix1 p) r = ix2 r p := by
    funext a
    match a with
    | ⟨0, _⟩ => rfl
    | ⟨1, _⟩ => rfl
  rw [e]
  show dcol o (ix2 r p) * x (ix2 r p) = _
  rw [dcol_apply]

/-- The summand at `(r, p)`. -/
theorem summand_apply (x : FVec Ideal S8192x128 .f32) (o : FVec Ideal S8192x256 .f32) (r : Fin 8192) (p : Fin 128) :
    summand x o (ix2 r p)
      = x (ix2 r p) * (o (ix2 r (featCol p))
          - Ideal.div (o (ix2 r degCol) * ∑ r' : Fin 8192, o (ix2 r' degCol) * x (ix2 r' p))
              (two * max (Ideal.div (∑ r' : Fin 8192, o (ix2 r' degCol)) two) eps)) := by
  unfold summand
  show x (ix2 r p) * (extractStridedSlice S8192x128 ![0, 0] o slices_S8192x256_S8192x128_0_0 (ix2 r p)
      - Ideal.div (dcol o (ix2 r p)
          * broadcastInDim S8192x128 ![0, 1] bcast_S1x128_S8192x128_0_1 (broadcastInDim S1x128 ![1] bcast_S128_S1x128_1 (svec x o)) (ix2 r p))
        (broadcastInDim S8192x128 ![] bcast_S_S8192x128 (twoM o) (ix2 r p))) = _
  have e1 : extractStridedSlice S8192x128 ![0, 0] o slices_S8192x256_S8192x128_0_0 (ix2 r p) = o (ix2 r (featCol p)) :=
    slice2_axis1_apply 0 o slices_S8192x256_S8192x128_0_0 r p (featCol p) (Nat.zero_add _).symm
  have e2 : broadcastInDim S8192x128 ![0, 1] bcast_S1x128_S8192x128_0_1 (broadcastInDim S1x128 ![1] bcast_S128_S1x128_1 (svec x o)) (ix2 r p)
      = svec x o (ix1 p) := by
    refine (broadcastInDim_apply _ bcast_S1x128_S8192x128_0_1 _ (ix2 r p) (ix2 (0 : Fin 1) p) ?_).trans ?_
    · intro a
      match a with
      | ⟨0, _⟩ => rfl
      | ⟨1, _⟩ => rfl
    refine broadcastInDim_apply _ bcast_S128_S1x128_1 _ (ix2 (0 : Fin 1) p) (ix1 p) ?_
    intro a
    match a with
    | ⟨0, _⟩ => rfl
  rw [e1, e2, dcol_apply, svec_apply, broadcastInDim_scalar_apply, twoM_apply]

/-- The whole tail is the modularity formed from the product's columns. -/
theorem tailFn_apply (x : FVec Ideal S8192x128 .f32) (o : FVec Ideal S8192x256 .f32) (i : S_.Idx) :
    tailFn x o i = kernelTail (fun a p => x (ix2 a p)) (fun a c => o (ix2 a c)) := by
  unfold tailFn kernelTail
  show -(Ideal.div (Ideal.hostReduceAdd reducesTo_S8192x128_S_d0_1 (summand x o) (Ideal.ofBits .f32 0x00000000#32) i) (twoM o i)) = _
  rw [Ideal.hostReduceAdd_total reducesTo_S8192x128_S_d0_1 (fun b => b.elim0), Ideal.ofBits_zero_f32, zero_add, sum_idx2, twoM_apply]
  simp only [summand_apply]

/-! ## The operations after the matrix product -/

/-- The operations after the product leave the modularity formed from the product's columns in their result. -/
theorem tail_v28 (val : Valuation τ sig (Elt Ideal)) :
    (StableHlo.after (hostOps1 (F := Ideal)) val (Proc.devRef .tc main_v28) : S_.Idx → EReal)
      = fun _ => kernelTail (fun a p => (val (Proc.devRef .tc main_arg0) : S8192x128.Idx → EReal) (ix2 a p))
                            (fun a c => (val (Proc.devRef .tc main_v4) : S8192x256.Idx → EReal) (ix2 a c)) := by
  have e : (StableHlo.after (hostOps1 (F := Ideal)) val (Proc.devRef .tc main_v28) : S_.Idx → EReal)
      = tailFn (val (Proc.devRef .tc main_arg0)) (val (Proc.devRef .tc main_v4)) := by
    after_results_simp
    rfl
  rw [e]
  funext i
  exact tailFn_apply _ _ i

/-- They write neither argument. -/
theorem tail_arg0 (val : Valuation τ sig (Elt Ideal)) :
    StableHlo.after (hostOps1 (F := Ideal)) val (Proc.devRef .tc main_arg0) = val (Proc.devRef .tc main_arg0) := by
  after_results_simp

theorem tail_arg1 (val : Valuation τ sig (Elt Ideal)) :
    StableHlo.after (hostOps1 (F := Ideal)) val (Proc.devRef .tc main_arg1) = val (Proc.devRef .tc main_arg1) := by
  after_results_simp

end Cert.KernelIdeal.HostValue

end
-- ==== Proof.KernelValue.lean ====
/-
  The idealized kernel's run, read: @main ends with its result at the kernel's formula of the two arguments — the
  host operations after the pallas_call applied to the features and to the product of the weights with the augmented
  features — and with both arguments as launched.

  The region's result array is the product of the weights and the augmented features as the region finds them; the
  six host operations before it leave the weights alone and build the augmented features from the features; the 31
  after it compute the modularity from the product and the features.
-/
import proofs.«117033_j13434657702449_1_alg».proof.Proof.RegionValue
import proofs.«117033_j13434657702449_1_alg».proof.Proof.KernelHost
import proofs.«117033_j13434657702449_1_alg».proof.Proof.Spec

set_option maxRecDepth 16384

noncomputable section

open scoped BigOperators

namespace Cert.KernelIdeal.KernelValue

open Idealize.ShloMosaic Idealize.ShloMosaic.TcCoe Idealize.SL.Sem
open Idealize.ShloMosaic.Pipeline (Dat Cfg Window)
open Cert.KernelIdeal Cert.KernelIdeal.Gen Cert.KernelIdeal.Frm Cert.KernelIdeal.RegionValue Cert.Modularity
open Idealize.ShloMosaic.ValueIdx

variable (m : (ℓ : Loc nD τ sig) → Buf (Elt Ideal) ℓ) (ρ : Dev nD → PrngReg)

/-- The launched features and weights of core `c`, by coordinates. -/
def xOf (c : Dev nD) : Fin 8192 → Fin 128 → EReal := fun a p => (m ((c.tc : Thread nD τ).loc main_arg0) : S8192x128.Idx → EReal) (ix2 a p)
def wOf (c : Dev nD) : Fin 8192 → Fin 8192 → EReal := fun a j => (m ((c.tc : Thread nD τ).loc main_arg1) : S8192x8192.Idx → EReal) (ix2 a j)

/-- The region finds the weights as launched, -/
theorem wAt_eq (c : Dev nD) (R j : Fin 8192) : wAt m c R j = wOf m c R j := by
  unfold wAt wOf; rw [V_main_arg1]
/-- and the augmented features built from the launched features. -/
theorem xaAt_eq (c : Dev nD) (j : Fin 8192) (q : Fin 256) : xaAt m c j q = xaug (xOf m c) j q := by
  unfold xaAt
  show (StableHlo.after (hostOps0 (F := Ideal)) (fun b => m (c, b)) (Proc.devRef .tc main_v3) : S8192x256.Idx → EReal) (ix2 j q) = _
  exact HostValue.prefix_v3 (fun b => m (c, b)) j q

/-- So the region's result array is the specification's augmented product. -/
theorem prodArr_apply (c : Dev nD) (a : Fin 8192) (q : Fin 256) : prodArr m c (ix2 a q) = prodAug (wOf m c) (xOf m c) a q := by
  show ∑ j : Fin 8192, wAt m c a j * xaAt m c j q = ∑ j : Fin 8192, wOf m c a j * xaug (xOf m c) j q
  exact Finset.sum_congr rfl fun j _ => by rw [wAt_eq, xaAt_eq]

/-- What the later operations read: the features, no array of the pipeline, are as the region found them — as
    launched —, -/
theorem tailIn_arg0 (c : Dev nD) :
    Pipeline.withArrays spec0 c (V0 m c) (fun w => (dats m 0 c).arrAt w cfg0.N) (Proc.devRef .tc main_arg0) = m ((c.tc : Thread nD τ).loc main_arg0) :=
  (Pipeline.withArrays_of_ne _ c _ _ main_arg0 (by decide)).trans (V_main_arg0 m c)
/-- and the pipeline's result array is the product. -/
theorem tailIn_v4 (c : Dev nD) :
    Pipeline.withArrays spec0 c (V0 m c) (fun w => (dats m 0 c).arrAt w cfg0.N) (Proc.devRef .tc main_v4) = prodArr m c :=
  (Pipeline.withArrays_arr spec0 launch0.win.arr_inj c _ _ 2).trans (final_o m c)

/-- The result after the later operations: the kernel's formula of the launched arguments. -/
theorem result_eq (c : Dev nD) :
    Pipeline.afterTail₀ cfgs (dats m) 0 (V0 m) [hostOps1] c main_v28
      = fun _ => kernelTail (xOf m c) (prodAug (wOf m c) (xOf m c)) := by
  unfold Pipeline.afterTail₀
  show StableHlo.after (hostOps1 (F := Ideal)) (Pipeline.withArrays spec0 c (V0 m c) fun w => (dats m 0 c).arrAt w cfg0.N) (Proc.devRef .tc main_v28) = _
  rw [HostValue.tail_v28, tailIn_arg0, tailIn_v4]
  have e : (fun a q => prodArr m c (ix2 a q)) = prodAug (wOf m c) (xOf m c) := funext fun a => funext fun q => prodArr_apply m c a q
  rw [e]; rfl

/-- THE RUN, READ. -/
theorem run : θ_run defs (onTc (τ := τ) (main (F := Ideal))) ⟨m, fun _ => 0, ρ⟩ (fun r => ∀ c : Dev nD,
      r.2.mem ((c.tc : Thread nD τ).loc main_v28) = (fun _ => kernelTail (xOf m c) (prodAug (wOf m c) (xOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v28 (Pipeline.mem_restRefs_of main_v28 (by decide) (by decide))).trans (result_eq m c),
     ((h c).2 main_arg0 (Pipeline.mem_restRefs_of main_arg0 (by decide) (by decide))).trans (tail_arg0 m (dats m) c),
     ((h c).1 0).trans (((dats m 0 c).arrAt_in 0 rfl _).trans ((A_eq m c 0).trans (V_main_arg1 m c)))⟩) (run_main m ρ)

end Cert.KernelIdeal.KernelValue

end
-- ==== Proof.RefRead.lean ====
/-
  The reference's run, read as the modularity of its arguments.

  The reference forms the total weight `∑ r j, w r j`, halves it and floors it at the small literal, takes each row's
  degree `d r = ∑ j, w r j`, spreads the degrees into the outer product `d r * d j`, divides it by twice the floored
  half-weight, subtracts the quotient from the weights, multiplies the difference by the features, weights the product
  by the features entry by entry, sums every entry, divides by the same divisor and negates. Each stage is read below
  at coordinates `(r, j)` or `(r, p)`; every reduction starts from the zero word, which adds nothing; the two float
  literals are kept as the words the program prints, which are the specification's own. Nothing here needs the entries
  to be finite: the reading holds for any arrays of extended reals.
-/
import proofs.«117033_j13434657702449_1_alg».proof.Defs
import proofs.«117033_j13434657702449_1_alg».proof.Proof.Gen.ReferenceIdeal.Run
import proofs.«117033_j13434657702449_1_alg».proof.Proof.Gen.ReferenceIdeal.Read
import proofs.«117033_j13434657702449_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Modularity (two eps)

/-- The features' and the weights' arrays, as the reference's program holds them. -/
abbrev XArr : Type := (⟨S8192x128, .f32⟩ : BufTy).Contents (Elt Ideal)
abbrev WArr : Type := (⟨S8192x8192, .f32⟩ : BufTy).Contents (Elt Ideal)

/-- The total weight: the full reduction of the weights from the zero word is the double sum of their entries. -/
theorem total_eq (W : WArr) (i : S_.Idx) :
    val_main_v0 (F := Ideal) W i = ∑ r : Fin 8192, ∑ j : Fin 8192, W (ix2 r j) := by
  rw [val_main_v0_apply, val_main_cst_apply, Ideal.ofBits_def, Ideal.ofBits_zero_f32, zero_add, sum_idx2]

/-- Half the total weight, floored. -/
theorem floor_eq (W : WArr) (i : S_.Idx) :
    val_main_v2 (F := Ideal) W i
      = max (Ideal.div (∑ r : Fin 8192, ∑ j : Fin 8192, W (ix2 r j)) two) eps := by
  rw [val_main_v2_apply, val_main_v1_apply, total_eq, val_main_cst_0_apply, val_main_cst_1_apply]
  simp only [Ideal.maximumf_def, Ideal.hostDivf_def, Ideal.ofBits_def, Cert.Modularity.two, Cert.Modularity.eps]

/-- A row's degree. -/
theorem deg_eq (W : WArr) (r : Fin 8192) :
    val_main_v3 (F := Ideal) W (ix1 r) = ∑ j : Fin 8192, W (ix2 r j) := by
  rw [val_main_v3_apply, val_main_cst_2_apply, Ideal.ofBits_def, Ideal.ofBits_zero_f32, zero_add]
  refine Finset.sum_congr rfl fun k _ => congrArg W ?_
  funext a; match a with | ⟨0, _⟩ => rfl | ⟨1, _⟩ => rfl

/-- The divisor both quotients share: twice the floored half of the total weight. -/
theorem scale_eq (W : WArr) (i : S_.Idx) :
    val_main_v9 (F := Ideal) W i
      = two * max (Ideal.div (∑ r : Fin 8192, ∑ j : Fin 8192, W (ix2 r j)) two) eps := by
  rw [val_main_v9_apply, floor_eq, val_main_cst_3_apply]
  simp only [Ideal.mulf_def, Ideal.ofBits_def, Cert.Modularity.two]

/-- The same divisor, as the program forms it a second time for the last quotient. -/
theorem scale_eq' (W : WArr) (i : S_.Idx) :
    val_main_v16 (F := Ideal) W i
      = two * max (Ideal.div (∑ r : Fin 8192, ∑ j : Fin 8192, W (ix2 r j)) two) eps := by
  rw [val_main_v16_apply, floor_eq, val_main_cst_5_apply]
  simp only [Ideal.mulf_def, Ideal.ofBits_def, Cert.Modularity.two]

/-- Entry (r, j) of the scaled outer product of the degrees: the column of degrees broadcast along the rows meets the
    row of degrees broadcast down the columns. -/
theorem outer_eq (W : WArr) (r j : Fin 8192) :
    val_main_v11 (F := Ideal) W (ix2 r j)
      = Ideal.div ((∑ j' : Fin 8192, W (ix2 r j')) * ∑ j' : Fin 8192, W (ix2 j j'))
          (two * max (Ideal.div (∑ r' : Fin 8192, ∑ j' : Fin 8192, W (ix2 r' j')) two) eps) := by
  have e4 : idx_main_v4 (idx_main_v6 (ix2 r j)) = ix1 r := by
    funext a; match a with | ⟨0, _⟩ => rfl
  have e5 : idx_main_v5 (idx_main_v7 (ix2 r j)) = ix1 j := by
    funext a; match a with | ⟨0, _⟩ => rfl
  rw [val_main_v11_apply, val_main_v8_apply, val_main_v6_apply, val_main_v4_apply, e4, deg_eq,
    val_main_v7_apply, val_main_v5_apply, e5, deg_eq, val_main_v10_apply, scale_eq]
  simp only [Ideal.hostDivf_def, Ideal.mulf_def]

/-- Entry (r, j) of the modularity matrix. -/
theorem centred_eq (W : WArr) (r j : Fin 8192) :
    val_main_v12 (F := Ideal) W (ix2 r j)
      = W (ix2 r j) - Ideal.div ((∑ j' : Fin 8192, W (ix2 r j')) * ∑ j' : Fin 8192, W (ix2 j j'))
          (two * max (Ideal.div (∑ r' : Fin 8192, ∑ j' : Fin 8192, W (ix2 r' j')) two) eps) := by
  rw [val_main_v12_apply, outer_eq]
  simp only [Ideal.subf_def]

/-- Entry (r, p) of the modularity matrix times the features: the contraction runs over the matrix's columns, which are
    the features' rows. -/
theorem prod_eq (X : XArr) (W : WArr) (r : Fin 8192) (p : Fin 128) :
    val_main_v13 (F := Ideal) X W (ix2 r p)
      = ∑ j : Fin 8192,
          (W (ix2 r j) - Ideal.div ((∑ j' : Fin 8192, W (ix2 r j')) * ∑ j' : Fin 8192, W (ix2 j j'))
            (two * max (Ideal.div (∑ r' : Fin 8192, ∑ j' : Fin 8192, W (ix2 r' j')) two) eps)) * X (ix2 j p) := by
  rw [val_main_v13_apply]
  refine Finset.sum_congr rfl fun k _ => ?_
  have el : lidx_main_v13 (ix2 r p) k = ix2 r k := by
    funext a; match a with | ⟨0, _⟩ => rfl | ⟨1, _⟩ => rfl
  have er : ridx_main_v13 (ix2 r p) k = ix2 k p := by
    funext a; match a with | ⟨0, _⟩ => rfl | ⟨1, _⟩ => rfl
  rw [el, er, centred_eq]

/-- The features weighted by that product, summed over every entry. -/
theorem weighted_eq (X : XArr) (W : WArr) (i : S_.Idx) :
    val_main_v15 (F := Ideal) X W i
      = ∑ r : Fin 8192, ∑ p : Fin 128,
          X (ix2 r p) * ∑ j : Fin 8192,
            (W (ix2 r j) - Ideal.div ((∑ j' : Fin 8192, W (ix2 r j')) * ∑ j' : Fin 8192, W (ix2 j j'))
              (two * max (Ideal.div (∑ r' : Fin 8192, ∑ j' : Fin 8192, W (ix2 r' j')) two) eps)) * X (ix2 j p) := by
  rw [val_main_v15_apply, val_main_cst_4_apply, Ideal.ofBits_def, Ideal.ofBits_zero_f32, zero_add, sum_idx2]
  refine Finset.sum_congr rfl fun r _ => Finset.sum_congr rfl fun p _ => ?_
  rw [val_main_v14_apply, prod_eq]
  simp only [Ideal.mulf_def]

/-- The reference's composed term, for any arrays of extended reals, is the modularity of the specification. -/
theorem result_eq (X : XArr) (W : WArr) :
    val_main_v18 (F := Ideal) X W
      = fun _ => Cert.Modularity.reference (fun a p => X (ix2 a p)) (fun a j => W (ix2 a j)) := by
  funext i
  rw [val_main_v18_apply, val_main_v17_apply, weighted_eq, scale_eq']
  simp only [Ideal.hostNegf_def, Ideal.negf_def, Ideal.hostDivf_def, Cert.Modularity.reference]

/-- Every weakly fair execution of the reference terminates with its result the modularity of its arguments, read
    coordinate by coordinate, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v18)
            = (fun _ => Cert.Modularity.reference
                  (fun a p => m ((c.tc : Thread Cert.ReferenceIdeal.nD Cert.ReferenceIdeal.τ).loc Cert.ReferenceIdeal.main_arg0) (ValueIdx.ix2 a p))
                  (fun a j => m ((c.tc : Thread Cert.ReferenceIdeal.nD Cert.ReferenceIdeal.τ).loc Cert.ReferenceIdeal.main_arg1) (ValueIdx.ix2 a j)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v18_eq _ _).trans (result_eq _ _)), (h c).2⟩)
    (Cert.ReferenceIdeal.Value.run (F := Ideal) m ρ)

end Cert.ReferenceIdeal.RefValue

end
-- ==== Proof.Algebra.lean ====
/-
  The algebra behind the agreement of the two programs, over finite (real) entries.

  With real weights `w` and features `x`, every intermediate value of both expressions is the coercion of a real:
  column 128 of the augmented product is the degree `d r = ∑ j, w r j`, column `p < 128` is `(w x) r p = ∑ j, w r j * x j p`,
  the total weight is the same real on both sides, the floor `ε` is a positive real, so the divisor `2 m` is a nonzero real
  and the ideal quotient by it is the real quotient. What remains is the identity
  `∑ j, (w r j - d r * d j / (2 m)) * x j p = (w x) r p - d r * (∑ j, d j * x j p) / (2 m)` in `ℝ`.
-/
import proofs.«117033_j13434657702449_1_alg».proof.Proof.Spec
import Mathlib.Data.EReal.Operations
import Mathlib.Algebra.BigOperators.Ring.Finset
import Mathlib.Tactic.Ring
import Mathlib.Tactic.NormNum

noncomputable section

open scoped BigOperators

namespace Cert.Modularity

open Idealize.ShloMosaic

/-! ### The two literals as reals -/

/-- The literal `2.0` denotes the real `2`. -/
theorem two_eq : two = ((2 : ℝ) : EReal) := by
  unfold two
  simp [Ideal.ofBits, Ideal.ieee, -EReal.coe_mul]
  norm_num

/-- The floor denotes a positive real. -/
theorem eps_eq : ∃ e : ℝ, 0 < e ∧ eps = (e : EReal) := by
  unfold eps
  simp [Ideal.ofBits, Ideal.ieee, -EReal.coe_mul]

/-! ### Coercion from the reals commutes with what the two expressions are built from -/

/-- A finite sum of coerced reals is the coercion of the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coercion of the real maximum. -/
theorem coe_max (a b : ℝ) : ((max a b : ℝ) : EReal) = max (a : EReal) (b : EReal) :=
  EReal.coe_strictMono.monotone.map_max

/-- The ideal quotient of a real by a nonzero real is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The divisor `2 m` with `m = max (s / 2) e`, as a real. -/
def den (s e : ℝ) : ℝ := 2 * max (s / 2) e

theorem den_ne {s e : ℝ} (he : 0 < e) : den s e ≠ 0 := by
  have h : 0 < max (s / 2) e := lt_of_lt_of_le he (le_max_right _ _)
  have : 0 < den s e := by unfold den; positivity
  exact this.ne'

/-- The divisor both expressions spell is the coercion of `den`. -/
theorem den_coe (s e : ℝ) :
    ((2 : ℝ) : EReal) * max (Ideal.div (s : EReal) ((2 : ℝ) : EReal)) (e : EReal) = ((den s e : ℝ) : EReal) := by
  rw [div_coe_coe s (two_ne_zero), ← coe_max, ← EReal.coe_mul, den]

/-! ### The identity in the reals, over any finite index types -/

/-- Distributing the product with the features over the modularity matrix's two terms. -/
theorem real_row {ι κ : Type*} [Fintype ι] (w : ι → ι → ℝ) (x : ι → κ → ℝ) (M : ℝ) (r : ι) (p : κ) :
    (∑ j, w r j * x j p) - ((∑ j, w r j) * ∑ r', (∑ j, w r' j) * x r' p) / M
      = ∑ j, (w r j - ((∑ j', w r j') * ∑ j', w j j') / M) * x j p := by
  have h : ∀ j, (w r j - ((∑ j', w r j') * ∑ j', w j j') / M) * x j p
      = w r j * x j p - ((∑ j', w r j') / M) * ((∑ j', w j j') * x j p) := fun j => by ring
  rw [Finset.sum_congr rfl (fun j _ => h j), Finset.sum_sub_distrib, ← Finset.mul_sum]
  ring

/-- The two expressions over any finite index types, with the literals already read as reals. -/
theorem tail_eq_generic {ι κ : Type*} [Fintype ι] [Fintype κ] (w : ι → ι → ℝ) (x : ι → κ → ℝ) {e : ℝ} (he : 0 < e) :
    -(Ideal.div
        (∑ r : ι, ∑ p : κ,
          (x r p : EReal) * (((∑ j, w r j * x j p : ℝ) : EReal)
            - Ideal.div (((∑ j, w r j : ℝ) : EReal) * ∑ r' : ι, ((∑ j, w r' j : ℝ) : EReal) * (x r' p : EReal))
                (((2 : ℝ) : EReal) * max (Ideal.div (∑ r' : ι, ((∑ j, w r' j : ℝ) : EReal)) ((2 : ℝ) : EReal)) (e : EReal))))
        (((2 : ℝ) : EReal) * max (Ideal.div (∑ r' : ι, ((∑ j, w r' j : ℝ) : EReal)) ((2 : ℝ) : EReal)) (e : EReal)))
    = -(Ideal.div
        (∑ r : ι, ∑ p : κ,
          (x r p : EReal) * ∑ j : ι,
            ((w r j : EReal) - Ideal.div ((∑ j' : ι, (w r j' : EReal)) * ∑ j' : ι, (w j j' : EReal))
                (((2 : ℝ) : EReal) * max (Ideal.div (∑ r' : ι, ∑ j' : ι, (w r' j' : EReal)) ((2 : ℝ) : EReal)) (e : EReal)))
              * (x j p : EReal))
        (((2 : ℝ) : EReal) * max (Ideal.div (∑ r' : ι, ∑ j' : ι, (w r' j' : EReal)) ((2 : ℝ) : EReal)) (e : EReal))) := by
  have hM : den (∑ r', ∑ j', w r' j') e ≠ 0 := den_ne he
  simp only [← coe_sum, ← EReal.coe_mul, den_coe, div_coe_coe _ hM, ← EReal.coe_sub]
  congr 2
  refine congrArg (· / _) ?_
  refine Finset.sum_congr rfl (fun r _ => Finset.sum_congr rfl (fun p _ => ?_))
  rw [real_row]

/-! ### The augmented product's columns -/

/-- Column 128 of the augmented product is the degree. -/
theorem prodAug_degCol (w : Fin 8192 → Fin 8192 → ℝ) (x : Fin 8192 → Fin 128 → ℝ) (r : Fin 8192) :
    prodAug (fun r j => ((w r j : ℝ) : EReal)) (fun r p => ((x r p : ℝ) : EReal)) r degCol
      = ((∑ j, w r j : ℝ) : EReal) := by
  have h : ∀ j : Fin 8192, xaug (fun r p => ((x r p : ℝ) : EReal)) j degCol = 1 := fun j => by
    unfold xaug
    rw [dif_neg (by simp [degCol]), if_pos (by simp [degCol])]
  unfold prodAug
  rw [coe_sum]
  exact Finset.sum_congr rfl (fun j _ => by rw [h j, mul_one])

/-- Column `p` of the augmented product is the product of the weights with column `p` of the features. -/
theorem prodAug_featCol (w : Fin 8192 → Fin 8192 → ℝ) (x : Fin 8192 → Fin 128 → ℝ) (r : Fin 8192) (p : Fin 128) :
    prodAug (fun r j => ((w r j : ℝ) : EReal)) (fun r p => ((x r p : ℝ) : EReal)) r (featCol p)
      = ((∑ j, w r j * x j p : ℝ) : EReal) := by
  have h : ∀ j : Fin 8192, xaug (fun r p => ((x r p : ℝ) : EReal)) j (featCol p) = ((x j p : ℝ) : EReal) := fun j => by
    unfold xaug
    rw [dif_pos (show (featCol p).val < 128 from p.isLt)]
    rfl
  unfold prodAug
  rw [coe_sum]
  exact Finset.sum_congr rfl (fun j _ => by rw [h j, EReal.coe_mul])

/-! ### The statement -/

/-- On real weights and features, the kernel's tail applied to the augmented product is the reference. -/
theorem kernelTail_prodAug_eq_reference (w : Fin 8192 → Fin 8192 → ℝ) (x : Fin 8192 → Fin 128 → ℝ) :
    kernelTail (fun r p => ((x r p : ℝ) : EReal))
        (prodAug (fun r j => ((w r j : ℝ) : EReal)) (fun r p => ((x r p : ℝ) : EReal)))
      = reference (fun r p => ((x r p : ℝ) : EReal)) (fun r j => ((w r j : ℝ) : EReal)) := by
  obtain ⟨e, he, hε⟩ := eps_eq
  unfold kernelTail reference
  simp only [prodAug_degCol, prodAug_featCol, two_eq, hε]
  exact tail_eq_generic w x he

end Cert.Modularity

end
-- ==== Proof.Finite.lean ====
/-
  From the precondition to real entries.

  The precondition is the conjunction of two reductions by `and`, each over the comparisons `|x| < +∞` of one input's
  entries. Where it is `1`, every comparison is `1`, so every entry has its absolute value below `+∞`; an extended real
  with that property is neither infinity, hence the coercion of a real.
-/
import proofs.«117033_j13434657702449_1_alg».proof.Proof.Gen.Pre_finite_inputs
import proofs.«117033_j13434657702449_1_alg».proof.Pre_finite_inputs
import Idealize.ShloMosaic.Lib.ReduceAll
import Idealize.ShloMosaic.Lib.ValueIdx

noncomputable section

namespace Cert.Finite

open Idealize.ShloMosaic ValueIdx Cert.Pre_finite_inputs

instance : Subsingleton S_.Idx := ⟨fun a b => funext fun d => d.elim0⟩

/-- An extended real whose absolute value compares below the word of `+∞` is the coercion of a real. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- Under the precondition both inputs have real entries. -/
theorem real_of_pre [Cert.Pre_finite_inputs.Facts] (X : FVec Ideal S8192x128 .f32) (W : FVec Ideal S8192x8192 .f32)
    (h : Cert.Pre_finite_inputs.fn (F := Ideal) X W = fun _ => 1#1) :
    (∃ x : Fin 8192 → Fin 128 → ℝ, ∀ a p, X (ix2 a p) = ((x a p : ℝ) : EReal)) ∧
    (∃ w : Fin 8192 → Fin 8192 → ℝ, ∀ a j, W (ix2 a j) = ((w a j : ℝ) : EReal)) := by
  have h0 := congrFun h ix0
  dsimp only [fn] at h0
  obtain ⟨hX, hW⟩ := IntOp.andi_eq_one.1 h0
  have eX := fun i => Host.reduce_andi_all _ _ _ _ _ hX i
  have eW := fun i => Host.reduce_andi_all _ _ _ _ _ hW i
  have rX : ∀ (a : Fin 8192) (p : Fin 128), ∃ r : ℝ, X (ix2 a p) = (r : EReal) :=
    fun a p => real_of_abs_lt _ (eX (ix2 a p))
  have rW : ∀ (a j : Fin 8192), ∃ r : ℝ, W (ix2 a j) = (r : EReal) :=
    fun a j => real_of_abs_lt _ (eW (ix2 a j))
  exact ⟨⟨fun a p => Classical.choose (rX a p), fun a p => Classical.choose_spec (rX a p)⟩,
    ⟨fun a j => Classical.choose (rW a j), fun a j => Classical.choose_spec (rW a j)⟩⟩

end Cert.Finite

end
-- ==== Proof.lean ====
/-
  Newman modularity computed two ways agree: the proof of `Cert.Claim`.

  The kernel's program multiplies the weights once by the features augmented with a column of ones, so that one
  matrix product (a pallas_call accumulating eight partial products per row block) yields both `w x` and the degrees,
  and computes the modularity from those; the reference forms the modularity matrix `B = w - d dᵀ / (2 m)` and multiplies
  it by the features. For finite inputs the two results are one real number: distribute the product over the
  difference and pull `d r / (2 m)` out of the sum (Proof/Algebra.lean).

  The three frames: both kernel programs run their host operations, the region and the later host operations to the
  end with the arguments unchanged (Proof/BitsFrame, Proof/IdealFrame: the same text at the two float instances); the
  reference's is its run with the result dropped. The idealization rewrote nothing, so `preserves` is `True`. For the
  value claim, the idealized kernel's run ends at the kernel's formula of its arguments (Proof/KernelValue.lean) and the
  reference's at the reference's formula (Proof/RefRead.lean); the precondition makes every entry a real
  (Proof/Finite.lean), and there the two formulas agree.
-/
import proofs.«117033_j13434657702449_1_alg».proof.Defs
import proofs.«117033_j13434657702449_1_alg».proof.Proof.Gen.Kernel
import proofs.«117033_j13434657702449_1_alg».proof.Proof.Gen.KernelIdeal
import proofs.«117033_j13434657702449_1_alg».proof.Proof.Gen.ReferenceIdeal
import proofs.«117033_j13434657702449_1_alg».proof.Proof.Gen.Pre_finite_inputs
import proofs.«117033_j13434657702449_1_alg».proof.Proof.BitsFrame.Frame
import proofs.«117033_j13434657702449_1_alg».proof.Proof.IdealFrame.Frame
import proofs.«117033_j13434657702449_1_alg».proof.Proof.KernelValue
import proofs.«117033_j13434657702449_1_alg».proof.Proof.RefRead
import proofs.«117033_j13434657702449_1_alg».proof.Proof.Algebra
import proofs.«117033_j13434657702449_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.RefValue.run m ρ)

/-- Both idealized programs end at the reference's formula of the launched arguments: the reference by its run, the
    kernel by its run and, its entries being reals under the precondition, the algebraic identity. -/
theorem algebraic : Cert.algebraic_KernelIdeal_ReferenceIdeal := by
  intro m ρ m' ρ' hpre hagree
  refine ⟨fun c => fun _ => Cert.Modularity.reference (Cert.KernelIdeal.KernelValue.xOf m c) (Cert.KernelIdeal.KernelValue.wOf m c), ?_, ?_⟩
  · refine (θ_run Cert.KernelIdeal.defs _ _).mono (fun _ h c => ⟨(h c).1.trans ?_, (h c).2⟩) (Cert.KernelIdeal.KernelValue.run m ρ)
    obtain ⟨⟨x, hx⟩, ⟨w, hw⟩⟩ := Cert.Finite.real_of_pre _ _ (hpre c)
    have ex : Cert.KernelIdeal.KernelValue.xOf m c = fun a p => ((x a p : ℝ) : EReal) := funext fun a => funext fun p => hx a p
    have ew : Cert.KernelIdeal.KernelValue.wOf m c = fun a j => ((w a j : ℝ) : EReal) := funext fun a => funext fun j => hw a j
    show (fun _ => Cert.Modularity.kernelTail (Cert.KernelIdeal.KernelValue.xOf m c)
            (Cert.Modularity.prodAug (Cert.KernelIdeal.KernelValue.wOf m c) (Cert.KernelIdeal.KernelValue.xOf m c)))
        = fun _ => Cert.Modularity.reference (Cert.KernelIdeal.KernelValue.xOf m c) (Cert.KernelIdeal.KernelValue.wOf m c)
    rw [ex, ew, Cert.Modularity.kernelTail_prodAug_eq_reference w x]
  · refine (θ_run Cert.ReferenceIdeal.defs _ _).mono (fun _ h c => ⟨(h c).1.trans ?_, (h c).2⟩) (Cert.ReferenceIdeal.RefValue.run m' ρ')
    rw [(hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
